-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S512x512 : Shape := ⟨2, ![512, 512]⟩
abbrev S512 : Shape := ⟨1, ![512]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x256x512 .f32) (main_arg1 : FVec F S4x256x512 .f32) (main_arg2 : FVec F S512x512 .f32) (main_arg3 : FVec F S512 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x256x512 .f32 := Host.absf main_arg1
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  let main_c_1 : IVec S_ 1 := constantI S_ 1 1#1
  let main_v7 : IVec S_ 1 := (fun x v => Host.reduce IntOp.andi x v reducesTo_S4x256x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x256x512 : Shape := ⟨3, ![4, 256, 512]⟩
abbrev S512x512 : Shape := ⟨2, ![512, 512]⟩
abbrev S512 : Shape := ⟨1, ![512]⟩
abbrev S1x512 : Shape := ⟨2, ![1, 512]⟩
abbrev S1x256x512 : Shape := ⟨3, ![1, 256, 512]⟩
abbrev S128 : Shape := ⟨1, ![128]⟩
abbrev S256x256 : Shape := ⟨2, ![256, 256]⟩
abbrev S1x16x512 : Shape := ⟨3, ![1, 16, 512]⟩
abbrev S16x512 : Shape := ⟨2, ![16, 512]⟩
abbrev S256x512 : Shape := ⟨2, ![256, 512]⟩
abbrev S16x1x512 : Shape := ⟨3, ![16, 1, 512]⟩
abbrev S16x256x512 : Shape := ⟨3, ![16, 256, 512]⟩
abbrev S16x256 : Shape := ⟨2, ![16, 256]⟩
abbrev S256 : Shape := ⟨1, ![256]⟩
abbrev S256x1 : Shape := ⟨2, ![256, 1]⟩
abbrev S1x256x256 : Shape := ⟨3, ![1, 256, 256]⟩
abbrev S1 : Shape := ⟨1, ![1]⟩
abbrev S1x1x1 : Shape := ⟨3, ![1, 1, 1]⟩
abbrev S4x128 : Shape := ⟨2, ![4, 128]⟩
abbrev S4x1 : Shape := ⟨2, ![4, 1]⟩
abbrev S4 : Shape := ⟨1, ![4]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S512, .f32⟩
  | .hbm, ⟨6, _⟩ => ⟨S4x128, .f32⟩
  | .hbm, ⟨7, _⟩ => ⟨S4x1, .f32⟩
  | .hbm, ⟨8, _⟩ => ⟨S4, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S512x512, .f32⟩
  | .local _ .vmem, ⟨5, _⟩ => ⟨S1x512, .f32⟩
  | .local _ .vmem, ⟨6, _⟩ => ⟨S128, .f32⟩
  | .local _ .vmem, ⟨7, _⟩ => ⟨S128, .f32⟩
  | .local _ .vmem, ⟨8, _⟩ => ⟨S256x256, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_25 : BitVec 32 := 16#32
  let v63 : BitVec 32 := Scalar.muli arg7 c16_i32_25
  v63
def k0_off1 (k0_t1 : Fin k0_t1_loop.trips) : Fin 3 → Nat :=
  let c0_26 : Index := 0#32
  let c0_i32 : BitVec 32 := 0#32
  let c1_i32 : BitVec 32 := 1#32
  let arg7 : BitVec 32 := Scf.iv c0_i32 c1_i32 k0_t1
  let c16_i32_25 : BitVec 32 := 16#32
  let v63 : BitVec 32 := Scalar.muli arg7 c16_i32_25
  let v64 : BitVec 32 := v63
  let v65 : Index := Scalar.indexCast v64
  let c0_27 : Index := 0#32
  ![0, v65.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c16_i32_25 : BitVec 32 := 16#32
  let v63 : BitVec 32 := Scalar.muli arg7 c16_i32_25
  let v64 : BitVec 32 := v63
  let v77 : Index := Scalar.indexCast v64
  let c0_32 : Index := 0#32
  ![v77.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S1x512 : S512.ShapeCasts S1x512
  h_S1x16x512 : 0 < S1x16x512.numel
  shapeCasts_S1x16x512_S16x512 : S1x16x512.ShapeCasts S16x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S16x512_S16x1x512 : S16x512.ShapeCasts S16x1x512
  shapeCasts_S256x512_S1x256x512 : S256x512.ShapeCasts S1x256x512
  broadcasts_S16x1x512_S16x256x512 : S16x1x512.Broadcasts S16x256x512
  broadcasts_S1x256x512_S16x256x512 : S1x256x512.Broadcasts S16x256x512
  reduces_S16x256x512_S16x256 : S16x256x512.Reduces [2] S16x256
  h_S16x256 : 0 < S16x256.numel
  shapeCasts_S16x256_S16x256 : S16x256.ShapeCasts S16x256
  inb_S256x256_S256x256_0_0 : ∀ a, (![0, 0] : Fin 2 → Nat) a + S256x256.size a ≤ S256x256.size a
  h_S256x256 : 0 < S256x256.numel
  natLt_1_32 : 1 < 32
  reduces_S256x256_S256 : S256x256.Reduces [1] S256
  shapeCasts_S256_S256x1 : S256.ShapeCasts S256x1
  broadcasts_S256x1_S256x256 : S256x1.Broadcasts S256x256
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  reduces_S256x512_S256 : S256x512.Reduces [1] S256
  broadcasts_S256x1_S256x512 : S256x1.Broadcasts S256x512
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  inb_S128_S128_0 : ∀ a, (![0] : Fin 1 → Nat) a + S128.size a ≤ S128.size a
  h_S128 : 0 < S128.numel
  shapeCasts_S512_S4x128 : S512.ShapeCasts S4x128
  slices_S4x128_S4x1_0_0 : S4x128.Slices ![0, 0] S4x1
  shapeCasts_S4x1_S4 : S4x1.ShapeCasts S4
  reducesTo_S4_S_d0 : S4.ReducesTo [0] S_
  h_S_ : 0 < S_.numel
  dot_S256x512_S512x512_S256x512_1_1_0_0_n_n_wf : DotDims.WF S256x512 S512x512 S256x512 [1] [1] [0] [0] [] []
  dot_S256x512_S256x512_S256x256_1_1_0_0_n_n_wf : DotDims.WF S256x512 S256x512 S256x256 [1] [1] [0] [0] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x16x512.size a ≤ S1x256x512.size a
  k0_off2_inb : ∀ k0_t1 : Fin k0_t1_loop.trips, ∀ a, (k0_off2 k0_t1) a + S16x256.size a ≤ S256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x512.size a
  hwx0_0 : ∀ i : grid0.Coords, EltTy.bits .f32 = 32 ∨ (Rect.block (s := S4x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x256x512.size a
  hwx0_1 : ∀ i : grid0.Coords, EltTy.bits .f32 = 32 ∨ (Rect.block (s := S4x256x512) S1x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S512.size a
  hwx0_4 : ∀ i : grid0.Coords, EltTy.bits .f32 = 32 ∨ (Rect.block (s := S512) S128.size (cc0_transform_4 i) (hinb0_4 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S512x512 : Shape := ⟨2, ![512, 512]⟩
abbrev S512 : Shape := ⟨1, ![512]⟩
abbrev S4x1x256x512 : Shape := ⟨4, ![4, 1, 256, 512]⟩
abbrev S4x256x1x512 : Shape := ⟨4, ![4, 256, 1, 512]⟩
abbrev S4x256x256x512 : Shape := ⟨4, ![4, 256, 256, 512]⟩
abbrev S_ : Shape := ⟨0, ![]⟩
abbrev S4x256x256 : Shape := ⟨3, ![4, 256, 256]⟩
abbrev S4x256 : Shape := ⟨2, ![4, 256]⟩
abbrev S4x256x1 : Shape := ⟨3, ![4, 256, 1]⟩
abbrev S1x1x512 : Shape := ⟨3, ![1, 1, 512]⟩

abbrev nBuf : Space → Nat
  | .hbm => 83
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S512x512, .f32⟩
  | .hbm, ⟨3, _⟩ => ⟨S512, .f32⟩
  | .hbm, ⟨4, _⟩ => ⟨S4x1x256x512, .f32⟩
  | .hbm, ⟨5, _⟩ => ⟨S4x256x1x512, .f32⟩
  | .hbm, ⟨6, _⟩ => ⟨S4x256x256x512, .f32⟩
  | .hbm, ⟨7, _⟩ => ⟨S4x256x256x512, .f32⟩
  | .hbm, ⟨8, _⟩ => ⟨S4x256x256x512, .f32⟩
  | .hbm, ⟨9, _⟩ => ⟨S4x256x256x512, .f32⟩
  | .hbm, ⟨10, _⟩ => ⟨S_, .f32⟩
  | .hbm, ⟨11, _⟩ => ⟨S4x256x256, .f32⟩
  | .hbm, ⟨12, _⟩ => ⟨S_, .f32⟩
  | .hbm, ⟨13, _⟩ => ⟨S4x256x256, .f32⟩
  | .hbm, ⟨14, _⟩ => ⟨S4x256x256, .i1⟩
  | .hbm, ⟨15, _⟩ => ⟨S4x256x256, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S4x256x256, .f32⟩
  | .hbm, ⟨20, _⟩ => ⟨S4x256x256, .f32⟩
  | .hbm, ⟨21, _⟩ => ⟨S4x256x512, .f32⟩
  | .hbm, ⟨22, _⟩ => ⟨S1x1x512, .f32⟩
  | .hbm, ⟨23, _⟩ => ⟨S4x256x512, .f32⟩
  | .hbm, ⟨24, _⟩ => ⟨S4x256x512, .f32⟩
  | .hbm, ⟨25, _⟩ => ⟨S4x256x512, .f32⟩
  | .hbm, ⟨26, _⟩ => ⟨S_, .f32⟩
  | .hbm, ⟨27, _⟩ => ⟨S4x256, .f32⟩
  | .hbm, ⟨28, _⟩ => ⟨S4x256x1, .f32⟩
  | .hbm, ⟨29, _⟩ => ⟨S4x256x1, .f32⟩
  | .hbm, ⟨30, _⟩ => ⟨S_, .f32⟩
  | .hbm, ⟨31, _⟩ => ⟨S4x256x1, .f32⟩
  | .hbm, ⟨32, _⟩ => ⟨S4x256x1, .f32⟩
  | .hbm, ⟨33, _⟩ => ⟨S4x256x512, .f32⟩
  | .hbm, ⟨34, _⟩ => ⟨S4x256x512, .f32⟩
  | .hbm, ⟨35, _⟩ => ⟨S4x256x256, .f32⟩
  | .hbm, ⟨36, _⟩ => ⟨S_, .f32⟩
  | .hbm, ⟨37, _⟩ => ⟨S4x256x256, .f32⟩
  | .hbm, ⟨38, _⟩ => ⟨S4x256x256, .f32⟩
  | .hbm, ⟨39, _⟩ => ⟨S_, .f32⟩
  | .hbm, ⟨40, _⟩ => ⟨S4x256, .f32⟩
  | .hbm, ⟨41, _⟩ => ⟨S_, .f32⟩
  | .hbm, ⟨42, _⟩ => ⟨S4x256, .f32⟩
  | .hbm, ⟨43, _⟩ => ⟨S4x256, .f32⟩
  | .hbm, ⟨44, _⟩ => ⟨S4x256x1, .f32⟩
  | .hbm, ⟨45, _⟩ => ⟨S4x256x256, .f32⟩
  | .hbm, ⟨46, _⟩ => ⟨S4x256x256, .f32⟩
  | .hbm, ⟨47, _⟩ => ⟨S4x256x256, .f32⟩
  | .hbm, ⟨48, _⟩ => ⟨S_, .f32⟩
  | .hbm, ⟨49, _⟩ => ⟨S4x256, .f32⟩
  | .hbm, ⟨50, _⟩ => ⟨S4x256x1, .f32⟩
  | .hbm, ⟨51, _⟩ => ⟨S4x256x256, .f32⟩
  | .hbm, ⟨52, _⟩ => ⟨S4x256x256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4x256x256, .f32⟩
  | .hbm, ⟨57, _⟩ => ⟨S4x256x256, .f32⟩
  | .hbm, ⟨58, _⟩ => ⟨S_, .f32⟩
  | .hbm, ⟨59, _⟩ => ⟨S4x256x256, .f32⟩
  | .hbm, ⟨60, _⟩ => ⟨S4x256x256, .f32⟩
  | .hbm, ⟨61, _⟩ => ⟨S4x256x256, .f32⟩
  | .hbm, ⟨62, _⟩ => ⟨S_, .f32⟩
  | .hbm, ⟨63, _⟩ => ⟨S4x256x256, .f32⟩
  | .hbm, ⟨64, _⟩ => ⟨S4x256x256, .i1⟩
  | .hbm, ⟨65, _⟩ => ⟨S_, .f32⟩
  | .hbm, ⟨66, _⟩ => ⟨S4x256x256, .f32⟩
  | .hbm, ⟨67, _⟩ => ⟨S4x256x256, .i1⟩
  | .hbm, ⟨68, _⟩ => ⟨S_, .f32⟩
  | .hbm, ⟨69, _⟩ => ⟨S_, .f32⟩
  | .hbm, ⟨70, _⟩ => ⟨S4x256x256, .f32⟩
  | .hbm, ⟨71, _⟩ => ⟨S4x256x256, .f32⟩
  | .hbm, ⟨72, _⟩ => ⟨S4x256x256, .f32⟩
  | .hbm, ⟨73, _⟩ => ⟨S4x256x256, .f32⟩
  | .hbm, ⟨74, _⟩ => ⟨S4x256x256, .f32⟩
  | .hbm, ⟨75, _⟩ => ⟨S_, .f32⟩
  | .hbm, ⟨76, _⟩ => ⟨S_, .f32⟩
  | .hbm, ⟨77, _⟩ => ⟨S4x256x256, .f32⟩
  | .hbm, ⟨78, _⟩ => ⟨S4x256x256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_call1_v0 : Ref sig .tc := ⟨.hbm, 69, rfl⟩
abbrev main_call1_v1 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_call2_v0 : Ref sig .tc := ⟨.hbm, 76, rfl⟩
abbrev main_call2_v1 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  bcast_S4x256x512_S4x1x256x512_0_2_3 : S4x256x512.BroadcastsInDim S4x1x256x512 (![0, 2, 3] : Fin 3 → Fin S4x1x256x512.rank)
  bcast_S4x256x512_S4x256x1x512_0_1_3 : S4x256x512.BroadcastsInDim S4x256x1x512 (![0, 1, 3] : Fin 3 → Fin S4x256x1x512.rank)
  bcast_S4x1x256x512_S4x256x256x512_0_1_2_3 : S4x1x256x512.BroadcastsInDim S4x256x256x512 (![0, 1, 2, 3] : Fin 4 → Fin S4x256x256x512.rank)
  bcast_S4x256x1x512_S4x256x256x512_0_1_2_3 : S4x256x1x512.BroadcastsInDim S4x256x256x512 (![0, 1, 2, 3] : Fin 4 → Fin S4x256x256x512.rank)
  reducesTo_S4x256x256x512_S4x256x256_d3 : S4x256x256x512.ReducesTo [3] S4x256x256
  h_S_ : 0 < S_.numel
  bcast_S_S4x256x256 : S_.BroadcastsInDim S4x256x256 (![] : Fin 0 → Fin S4x256x256.rank)
  reducesTo_S4x256x256_S4x256_d2 : S4x256x256.ReducesTo [2] S4x256
  bcast_S4x256_S4x256x1_0_1 : S4x256.BroadcastsInDim S4x256x1 (![0, 1] : Fin 2 → Fin S4x256x1.rank)
  bcast_S4x256x1_S4x256x256_0_1_2 : S4x256x1.BroadcastsInDim S4x256x256 (![0, 1, 2] : Fin 3 → Fin S4x256x256.rank)
  bcast_S512_S1x1x512_2 : S512.BroadcastsInDim S1x1x512 (![2] : Fin 1 → Fin S1x1x512.rank)
  bcast_S1x1x512_S4x256x512_0_1_2 : S1x1x512.BroadcastsInDim S4x256x512 (![0, 1, 2] : Fin 3 → Fin S4x256x512.rank)
  reducesTo_S4x256x512_S4x256_d2 : S4x256x512.ReducesTo [2] S4x256
  bcast_S_S4x256x1 : S_.BroadcastsInDim S4x256x1 (![] : Fin 0 → Fin S4x256x1.rank)
  bcast_S4x256x1_S4x256x512_0_1_2 : S4x256x1.BroadcastsInDim S4x256x512 (![0, 1, 2] : Fin 3 → Fin S4x256x512.rank)
  bcast_S_S4x256 : S_.BroadcastsInDim S4x256 (![] : Fin 0 → Fin S4x256.rank)
  reducesTo_S4x256x256_S_d0_1_2 : S4x256x256.ReducesTo [0, 1, 2] S_
  dot_S4x256x512_S512x512_S4x256x512_2_1_01_0_n_n_wf : DotDims.WF S4x256x512 S512x512 S4x256x512 [2] [1] [0, 1] [0] [] []
  dot_S4x256x512_S4x256x512_S4x256x256_2_2_1_1_0_0_wf : DotDims.WF S4x256x512 S4x256x512 S4x256x256 [2] [2] [1] [1] [0] [0]

variable [Facts₀]

def dot_S4x256x512_S512x512_S4x256x512_2_1_01_0_n_n : DotDims S4x256x512 S512x512 S4x256x512 where
  lhsContracting := [2]
  rhsContracting := [1]
  lhsNonContracting := [0, 1]
  rhsNonContracting := [0]
  lhsBatch := []
  rhsBatch := []
  wf := dot_S4x256x512_S512x512_S4x256x512_2_1_01_0_n_n_wf
def dot_S4x256x512_S4x256x512_S4x256x256_2_2_1_1_0_0 : DotDims S4x256x512 S4x256x512 S4x256x256 where
  lhsContracting := [2]
  rhsContracting := [2]
  lhsNonContracting := [1]
  rhsNonContracting := [1]
  lhsBatch := [0]
  rhsBatch := [0]
  wf := dot_S4x256x512_S4x256x512_S4x256x256_2_2_1_1_0_0_wf

class Facts : Prop extends Facts₀ where

variable [Facts]
-- ==== Proof.BCover.lean ====
/-
  The sixteen trips of the distance loop fill the scratch: trip k stores rows 16k … 16k+15, all 256 columns.
-/
import proofs.«176485_j59863254172618_1_alg».proof.Proof.Gen.Kernel.Loops
import Idealize.ShloMosaic.Lib.Pipeline.Value
import Idealize.ShloMosaic.Lib.Pipeline.FrameBody
import Idealize.ShloMosaic.Lib.Tactic

noncomputable section

namespace Cert.Kernel.LoopCover

open Cert.Kernel Cert.Kernel.Gen Idealize.ShloMosaic Idealize.ShloMosaic.TcCoe Idealize.SL.Sem

/-- The number of trips, as the run spells it. -/
abbrev nTrips : ℕ := Scf.trips k0_t1_loop.lb k0_t1_loop.ub k0_t1_loop.st

theorem nTrips_eq : nTrips = 16 := by decide

variable {F : FTy → Type} [FloatOps F]
variable (𝒱 : Variants) (c : Dev nD) (bd : Option 𝒱.V) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)

/-- The piece trip `k` stores: through rows 16k … 16k+15 of the scratch (all 256 columns), the distances of the chunk
    of sixteen rows the trip loads to all the rows of the block. -/
abbrev tripPiece (X : BufTy.Contents (Elt F) arg2.view.ty) (k : Fin k0_t1_loop.trips) : View.Piece (Elt F) S256x256 .f32 :=
  ⟨Rect.unit (s := S256x256) (k0_off2 k) S16x256.size (k0_off2_inb k),
    k0_pay2 (View.ld (arg2.view.read (Elt F) X) (Rect.unit (s := S1x256x512) (k0_off1 k) S1x16x512.size (k0_off1_inb k)))
      (View.ld (arg2.view.read (Elt F) X)
        (Rect.unit (s := S1x256x512) ![0, 0, 0] S1x256x512.size inb_S1x256x512_S1x256x512_0_0_0))⟩

/-- ONE TRIP writes one piece: the trip's definition, opened here once. -/
theorem tripL_k0_t1_eq (X : BufTy.Contents (Elt F) arg2.view.ty) (k : Fin k0_t1_loop.trips) :
    tripL_k0_t1 (F := F) 𝒱 c bd i arg1 harg1 arg2 harg2 arg3 harg3 arg4 harg4 arg5 harg5 arg6 harg6 X k = [tripPiece arg2 X k] := by
  unfold tripL_k0_t1 trip_k0_t1
  rfl

/-- Every piece of the trips before `n` is the piece of a trip before `n`. -/
theorem mem_pb (X : BufTy.Contents (Elt F) arg2.view.ty) :
    ∀ (n : ℕ) (_ : n ≤ k0_t1_loop.trips) (p : View.Piece (Elt F) S256x256 .f32),
      p ∈ pb_k0_t1 (F := F) 𝒱 c bd i arg1 harg1 arg2 harg2 arg3 harg3 arg4 harg4 arg5 harg5 arg6 harg6 X n →
      ∃ k : Fin k0_t1_loop.trips, k.val < n ∧ p = tripPiece arg2 X k
  | 0, _, p, hp => absurd hp List.not_mem_nil
  | n + 1, hn, p, hp => by
    have e := pb_k0_t1_succ (F := F) 𝒱 c bd i arg1 harg1 arg2 harg2 arg3 harg3 arg4 harg4 arg5 harg5 arg6 harg6 X ⟨n, Nat.lt_of_succ_le hn⟩
    rw [show pb_k0_t1 (F := F) 𝒱 c bd i arg1 harg1 arg2 harg2 arg3 harg3 arg4 harg4 arg5 harg5 arg6 harg6 X (n + 1) = _ from e, tripL_k0_t1_eq] at hp
    rcases List.mem_cons.mp hp with h | h
    · exact ⟨⟨n, Nat.lt_of_succ_le hn⟩, Nat.lt_succ_self n, h⟩
    · obtain ⟨k, hk, e'⟩ := mem_pb X n (Nat.le_of_succ_le hn) p h
      exact ⟨k, Nat.lt_succ_of_lt hk, e'⟩

/-- The piece of a trip before `n` is among the pieces of the trips before `n`. -/
theorem tripPiece_mem_pb (X : BufTy.Contents (Elt F) arg2.view.ty) (k : Fin k0_t1_loop.trips) :
    ∀ (n : ℕ) (_ : n ≤ k0_t1_loop.trips), k.val < n →
      tripPiece arg2 X k ∈ pb_k0_t1 (F := F) 𝒱 c bd i arg1 harg1 arg2 harg2 arg3 harg3 arg4 harg4 arg5 harg5 arg6 harg6 X n
  | 0, _, hk => absurd hk (Nat.not_lt_zero _)
  | n + 1, hn, hk => by
    have e := pb_k0_t1_succ (F := F) 𝒱 c bd i arg1 harg1 arg2 harg2 arg3 harg3 arg4 harg4 arg5 harg5 arg6 harg6 X ⟨n, Nat.lt_of_succ_le hn⟩
    rw [show pb_k0_t1 (F := F) 𝒱 c bd i arg1 harg1 arg2 harg2 arg3 harg3 arg4 harg4 arg5 harg5 arg6 harg6 X (n + 1) = _ from e, tripL_k0_t1_eq]
    rcases Nat.lt_succ_iff_lt_or_eq.mp hk with h | h
    · exact List.mem_cons_of_mem _ (tripPiece_mem_pb X k n (Nat.le_of_succ_le hn) h)
    · have hkn : k = ⟨n, Nat.lt_of_succ_le hn⟩ := Fin.ext h
      rw [hkn]
      exact List.mem_cons_self

/-- Every entry of the scratch lies in the rows some trip stores. -/
theorem pb_cover (X : BufTy.Contents (Elt F) arg2.view.ty) (y : S256x256.Idx) :
    ∃ p ∈ pb_k0_t1 (F := F) 𝒱 c bd i arg1 harg1 arg2 harg2 arg3 harg3 arg4 harg4 arg5 harg5 arg6 harg6 X nTrips, y ∈ p.1.set := by
  have ht : k0_t1_loop.trips = 16 := nTrips_eq
  have hy0 : (y 0).val < 256 := (y 0).isLt
  have hy1 : (y 1).val < 256 := (y 1).isLt
  have hk : (y 0).val / 16 < k0_t1_loop.trips := by rw [ht]; omega
  refine ⟨tripPiece arg2 X ⟨(y 0).val / 16, hk⟩,
    tripPiece_mem_pb 𝒱 c bd i arg1 harg1 arg2 harg2 arg3 harg3 arg4 harg4 arg5 harg5 arg6 harg6 X ⟨(y 0).val / 16, hk⟩ nTrips (le_refl _) hk, ?_⟩
  show y ∈ (Rect.unit (s := S256x256) (k0_off2 ⟨(y 0).val / 16, hk⟩) S16x256.size (k0_off2_inb _)).set
  rw [Rect.mem_set_unit]
  intro a
  rw [k0_off2_eq]
  match a with
  | ⟨0, _⟩ =>
    show 16 * ((y 0).val / 16) ≤ (y 0).val ∧ (y 0).val < 16 * ((y 0).val / 16) + 16
    omega
  | ⟨1, _⟩ =>
    show 0 ≤ (y 1).val ∧ (y 1).val < 0 + 256
    omega

end Cert.Kernel.LoopCover

end
-- ==== Proof.BBody.lean ====
/-
  The kernel body on any staging memrefs, and the frame over it.

  The body fills its scratch with the L1 distances of the label rows in sixteen trips of sixteen rows each, reads the
  scratch back whole, and stores ONE vector into the output block: 128 copies of the batch's loss. Because the sixteen
  stores fill the scratch, what the body reads back is a function of the labels block alone — the canon of the trips'
  pieces —, whatever the scratch held on entry; so the stored vector is a function of the four input blocks, and the
  run can be stated with that vector named (`stored`). Over that run the proof data names what the output's staging
  buffer holds after each grid point, and the library's launch theorem gives the program's run with the result
  array's final contents stated.
-/
import proofs.«176485_j59863254172618_1_alg».proof.Proof.Gen.Kernel.Frame.Runs
import proofs.«176485_j59863254172618_1_alg».proof.Proof.BCover

set_option maxRecDepth 16384

noncomputable section

namespace Cert.Kernel.Body

open Cert.Kernel Cert.Kernel.Gen Cert.Kernel.LoopCover
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body stores -/

/-- The scratch after the loop: the canon of the sixteen trips' pieces, a function of the labels block. -/
def scratchAfter (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x1 : Vec F S1x256x512 .f32) : Vec F S256x256 .f32 :=
  View.canon (pb_k0_t1 (F := F) Variants.none c none i arg1 harg1 arg2 harg2 arg3 harg3 arg4 harg4 arg5 harg5 arg6 harg6 (harg2.unread x1) nTrips)

/-- The vector the body stores into the output block. -/
def stored (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) : FVec F S128 .f32 :=
  k0_pay1 (k0_pay3 (scratchAfter c i arg1 harg1 arg2 harg2 arg3 harg3 arg4 harg4 arg5 harg5 arg6 harg6 x1)) (k0_pay4 x0 x2 x3)

/-- The body's one piece of the output block: the whole block, at the stored vector. -/
def pieces (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) : List (View.Piece (Elt F) S128 .f32) :=
  [⟨Rect.unit ![0] ![128] inb_S128_S128_0, stored c i arg1 harg1 arg2 harg2 arg3 harg3 arg4 harg4 arg5 harg5 arg6 harg6 x0 x1 x2 x3⟩]

/-- The scratch read back whole after the sixteen stores is their canon, whatever it held before: they cover it. -/
theorem scratch_read (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x1 : Vec F S1x256x512 .f32) (fs0 : BufTy.Contents (Elt F) arg6.view.ty) :
    View.readAt (Elt F) arg6.view (Rect.unit ![0, 0] S256x256.size inb_S256x256_S256x256_0_0).toLoadRect
        (arg6.view.writes (Elt F) fs0 (pb_k0_t1 (F := F) Variants.none c none i arg1 harg1 arg2 harg2 arg3 harg3 arg4 harg4 arg5 harg5 arg6 harg6 (harg2.unread x1) nTrips))
      = scratchAfter c i arg1 harg1 arg2 harg2 arg3 harg3 arg4 harg4 arg5 harg5 arg6 harg6 x1 := by
  unfold scratchAfter
  rw [View.readAt_eq_ld, View.read_writes_eq_canon _ _ _ (pb_cover Variants.none c none i arg1 harg1 arg2 harg2 arg3 harg3 arg4 harg4 arg5 harg5 arg6 harg6 (harg2.unread x1))]
  exact View.ld_unit_zero (S := S256x256) hz2 _ _

/-- The piece list with its loads spelt as the run finds them. -/
theorem pieces_eq (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) (fs0 : BufTy.Contents (Elt F) arg6.view.ty) :
    pieces c i arg1 harg1 arg2 harg2 arg3 harg3 arg4 harg4 arg5 harg5 arg6 harg6 x0 x1 x2 x3
      = [⟨Rect.unit ![0] ![128] inb_S128_S128_0,
          k0_pay1
            (k0_pay3
              (View.readAt (Elt F) arg6.view (Rect.unit ![0, 0] S256x256.size inb_S256x256_S256x256_0_0).toLoadRect
                (arg6.view.writes (Elt F) fs0
                  (pb_k0_t1 (F := F) Variants.none c none i arg1 harg1 arg2 harg2 arg3 harg3 arg4 harg4 arg5 harg5 arg6 harg6 (harg2.unread x1) nTrips))))
            (k0_pay4
              (View.readAt (Elt F) arg1.view (Rect.unit ![0, 0, 0] S1x256x512.size inb_S1x256x512_S1x256x512_0_0_0).toLoadRect (harg1.unread x0))
              (View.readAt (Elt F) arg3.view (Rect.unit ![0, 0] S512x512.size inb_S512x512_S512x512_0_0).toLoadRect (harg3.unread x2))
              (View.readAt (Elt F) arg4.view (Rect.unit ![0, 0] S1x512.size inb_S1x512_S1x512_0_0).toLoadRect (harg4.unread x3)))⟩] := by
  rw [scratch_read]
  simp only [View.readAt_eq_ld, harg1.read_unread, harg3.read_unread, harg4.read_unread,
    View.ld_unit_zero (S := S1x256x512) hz3, View.ld_unit_zero (S := S512x512) hz2, View.ld_unit_zero (S := S1x512) hz2]
  rfl

/-! ## The body's run -/

set_option maxHeartbeats 4000000 in
/-- On whole staging memrefs — the inputs' at their contents, the output's and the scratch at anything — the body runs
    to the continuation holding the inputs' as they were, the scratch at some contents, and the output's buffer with
    the one piece written. -/
theorem kernelRun (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (pieces c i arg1 harg1 arg2 harg2 arg3 harg3 arg4 harg4 arg5 harg5 arg6 harg6 x0 x1 x2 x3)) ∗ (∃ d, owns (c : Thread nD τ) arg6 fullShare d)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg1.eq_unread hf0; obtain rfl := harg2.eq_unread hf1; obtain rfl := harg3.eq_unread hf2; obtain rfl := harg4.eq_unread hf3
  sl_exec
  sl_step
  sl_unfold_run_names
  rw [pieces_eq c i arg1 harg1 arg2 harg2 arg3 harg3 arg4 harg4 arg5 harg5 arg6 harg6 x0 x1 x2 x3 fs0]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]; · iexists _; iexact H4
  iexists _, _; isplitr; swap; · iexact HS0
  ipureintro; rfl

/-! ## What the output holds after each point, the proof data, the obligation, the run -/

/-- The body's one piece is the whole output block, so it covers it. -/
theorem cover0_A_4 (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)
    (x0 : Vec F S1x256x512 .f32) (x1 : Vec F S1x256x512 .f32) (x2 : Vec F S512x512 .f32) (x3 : Vec F S1x512 .f32) (y : S128.Idx) :
    ∃ pc ∈ (pieces c i arg1 harg1 arg2 harg2 arg3 harg3 arg4 harg4 arg5 harg5 arg6 harg6 x0 x1 x2 x3), y ∈ pc.1.set := by
  unfold pieces
  exact ⟨_, List.mem_singleton_self _, View.mem_set_unit_zero (S := S128) hz1 inb_S128_S128_0 y⟩

/-- What the body leaves in the output's staging buffer: its one piece read back. -/
def out0_A_4 (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)
    (x0 : Vec F S1x256x512 .f32) (x1 : Vec F S1x256x512 .f32) (x2 : Vec F S512x512 .f32) (x3 : Vec F S1x512 .f32) : Vec F S128 .f32 :=
  VO0_4.read (Elt F) (VO0_4.writes (Elt F) VO0_4.junk (pieces c i arg1 harg1 arg2 harg2 arg3 harg3 arg4 harg4 arg5 harg5 arg6 harg6 x0 x1 x2 x3))

/-! ## What the outputs hold after each point -/

/-- What the outputs' staging buffers hold after the body at point `t`: the run's contents at
    the point's memrefs and input blocks. -/
def outsAt0 (c : Dev nD) (t : Fin cfg0.N) : Vec F S128 .f32 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)

/-! ## The pipeline's proof data -/

/-- The proof data of the one pipeline on core `c`: the arrays as the region finds them; after the body at point `t`
    each input's buffer at its block and the output's at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨HS0, Hg⟩, Ho, ⟨%d0, H0⟩, ⟨%d1, H1⟩, ⟨%d2, H2⟩, ⟨%d3, H3⟩, ⟨%d4, H4⟩⟩
  iapply (kernelRun c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main
    terminates, and every final state has every array of the pipeline at what the proof data gives and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Body.run_main' depends on axioms: [propext, Classical.choice, Quot.sound] -/
#guard_msgs in #print axioms run_main

/-- The frame claim at any `F`: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KCover.lean ====
/-
  The sixteen trips of the distance loop fill the scratch: trip k stores rows 16k … 16k+15, all 256 columns.
-/
import proofs.«176485_j59863254172618_1_alg».proof.Proof.Gen.KernelIdeal.Loops
import Idealize.ShloMosaic.Lib.Pipeline.Value
import Idealize.ShloMosaic.Lib.Pipeline.FrameBody
import Idealize.ShloMosaic.Lib.Tactic

noncomputable section

namespace Cert.KernelIdeal.LoopCover

open Cert.KernelIdeal Cert.KernelIdeal.Gen Idealize.ShloMosaic Idealize.ShloMosaic.TcCoe Idealize.SL.Sem

/-- The number of trips, as the run spells it. -/
abbrev nTrips : ℕ := Scf.trips k0_t1_loop.lb k0_t1_loop.ub k0_t1_loop.st

theorem nTrips_eq : nTrips = 16 := by decide

variable {F : FTy → Type} [FloatOps F]
variable (𝒱 : Variants) (c : Dev nD) (bd : Option 𝒱.V) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)

/-- The piece trip `k` stores: through rows 16k … 16k+15 of the scratch (all 256 columns), the distances of the chunk
    of sixteen rows the trip loads to all the rows of the block. -/
abbrev tripPiece (X : BufTy.Contents (Elt F) arg2.view.ty) (k : Fin k0_t1_loop.trips) : View.Piece (Elt F) S256x256 .f32 :=
  ⟨Rect.unit (s := S256x256) (k0_off2 k) S16x256.size (k0_off2_inb k),
    k0_pay2 (View.ld (arg2.view.read (Elt F) X) (Rect.unit (s := S1x256x512) (k0_off1 k) S1x16x512.size (k0_off1_inb k)))
      (View.ld (arg2.view.read (Elt F) X)
        (Rect.unit (s := S1x256x512) ![0, 0, 0] S1x256x512.size inb_S1x256x512_S1x256x512_0_0_0))⟩

/-- ONE TRIP writes one piece: the trip's definition, opened here once. -/
theorem tripL_k0_t1_eq (X : BufTy.Contents (Elt F) arg2.view.ty) (k : Fin k0_t1_loop.trips) :
    tripL_k0_t1 (F := F) 𝒱 c bd i arg1 harg1 arg2 harg2 arg3 harg3 arg4 harg4 arg5 harg5 arg6 harg6 X k = [tripPiece arg2 X k] := by
  unfold tripL_k0_t1 trip_k0_t1
  rfl

/-- Every piece of the trips before `n` is the piece of a trip before `n`. -/
theorem mem_pb (X : BufTy.Contents (Elt F) arg2.view.ty) :
    ∀ (n : ℕ) (_ : n ≤ k0_t1_loop.trips) (p : View.Piece (Elt F) S256x256 .f32),
      p ∈ pb_k0_t1 (F := F) 𝒱 c bd i arg1 harg1 arg2 harg2 arg3 harg3 arg4 harg4 arg5 harg5 arg6 harg6 X n →
      ∃ k : Fin k0_t1_loop.trips, k.val < n ∧ p = tripPiece arg2 X k
  | 0, _, p, hp => absurd hp List.not_mem_nil
  | n + 1, hn, p, hp => by
    have e := pb_k0_t1_succ (F := F) 𝒱 c bd i arg1 harg1 arg2 harg2 arg3 harg3 arg4 harg4 arg5 harg5 arg6 harg6 X ⟨n, Nat.lt_of_succ_le hn⟩
    rw [show pb_k0_t1 (F := F) 𝒱 c bd i arg1 harg1 arg2 harg2 arg3 harg3 arg4 harg4 arg5 harg5 arg6 harg6 X (n + 1) = _ from e, tripL_k0_t1_eq] at hp
    rcases List.mem_cons.mp hp with h | h
    · exact ⟨⟨n, Nat.lt_of_succ_le hn⟩, Nat.lt_succ_self n, h⟩
    · obtain ⟨k, hk, e'⟩ := mem_pb X n (Nat.le_of_succ_le hn) p h
      exact ⟨k, Nat.lt_succ_of_lt hk, e'⟩

/-- The piece of a trip before `n` is among the pieces of the trips before `n`. -/
theorem tripPiece_mem_pb (X : BufTy.Contents (Elt F) arg2.view.ty) (k : Fin k0_t1_loop.trips) :
    ∀ (n : ℕ) (_ : n ≤ k0_t1_loop.trips), k.val < n →
      tripPiece arg2 X k ∈ pb_k0_t1 (F := F) 𝒱 c bd i arg1 harg1 arg2 harg2 arg3 harg3 arg4 harg4 arg5 harg5 arg6 harg6 X n
  | 0, _, hk => absurd hk (Nat.not_lt_zero _)
  | n + 1, hn, hk => by
    have e := pb_k0_t1_succ (F := F) 𝒱 c bd i arg1 harg1 arg2 harg2 arg3 harg3 arg4 harg4 arg5 harg5 arg6 harg6 X ⟨n, Nat.lt_of_succ_le hn⟩
    rw [show pb_k0_t1 (F := F) 𝒱 c bd i arg1 harg1 arg2 harg2 arg3 harg3 arg4 harg4 arg5 harg5 arg6 harg6 X (n + 1) = _ from e, tripL_k0_t1_eq]
    rcases Nat.lt_succ_iff_lt_or_eq.mp hk with h | h
    · exact List.mem_cons_of_mem _ (tripPiece_mem_pb X k n (Nat.le_of_succ_le hn) h)
    · have hkn : k = ⟨n, Nat.lt_of_succ_le hn⟩ := Fin.ext h
      rw [hkn]
      exact List.mem_cons_self

/-- Every entry of the scratch lies in the rows some trip stores. -/
theorem pb_cover (X : BufTy.Contents (Elt F) arg2.view.ty) (y : S256x256.Idx) :
    ∃ p ∈ pb_k0_t1 (F := F) 𝒱 c bd i arg1 harg1 arg2 harg2 arg3 harg3 arg4 harg4 arg5 harg5 arg6 harg6 X nTrips, y ∈ p.1.set := by
  have ht : k0_t1_loop.trips = 16 := nTrips_eq
  have hy0 : (y 0).val < 256 := (y 0).isLt
  have hy1 : (y 1).val < 256 := (y 1).isLt
  have hk : (y 0).val / 16 < k0_t1_loop.trips := by rw [ht]; omega
  refine ⟨tripPiece arg2 X ⟨(y 0).val / 16, hk⟩,
    tripPiece_mem_pb 𝒱 c bd i arg1 harg1 arg2 harg2 arg3 harg3 arg4 harg4 arg5 harg5 arg6 harg6 X ⟨(y 0).val / 16, hk⟩ nTrips (le_refl _) hk, ?_⟩
  show y ∈ (Rect.unit (s := S256x256) (k0_off2 ⟨(y 0).val / 16, hk⟩) S16x256.size (k0_off2_inb _)).set
  rw [Rect.mem_set_unit]
  intro a
  rw [k0_off2_eq]
  match a with
  | ⟨0, _⟩ =>
    show 16 * ((y 0).val / 16) ≤ (y 0).val ∧ (y 0).val < 16 * ((y 0).val / 16) + 16
    omega
  | ⟨1, _⟩ =>
    show 0 ≤ (y 1).val ∧ (y 1).val < 0 + 256
    omega

end Cert.KernelIdeal.LoopCover

end
-- ==== Proof.KBody.lean ====
/-
  The kernel body on any staging memrefs, and the frame over it.

  The body fills its scratch with the L1 distances of the label rows in sixteen trips of sixteen rows each, reads the
  scratch back whole, and stores ONE vector into the output block: 128 copies of the batch's loss. Because the sixteen
  stores fill the scratch, what the body reads back is a function of the labels block alone — the canon of the trips'
  pieces —, whatever the scratch held on entry; so the stored vector is a function of the four input blocks, and the
  run can be stated with that vector named (`stored`). Over that run the proof data names what the output's staging
  buffer holds after each grid point, and the library's launch theorem gives the program's run with the result
  array's final contents stated.
-/
import proofs.«176485_j59863254172618_1_alg».proof.Proof.Gen.KernelIdeal.Frame.Runs
import proofs.«176485_j59863254172618_1_alg».proof.Proof.KCover

set_option maxRecDepth 16384

noncomputable section

namespace Cert.KernelIdeal.Body

open Cert.KernelIdeal Cert.KernelIdeal.Gen Cert.KernelIdeal.LoopCover
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body stores -/

/-- The scratch after the loop: the canon of the sixteen trips' pieces, a function of the labels block. -/
def scratchAfter (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x1 : Vec F S1x256x512 .f32) : Vec F S256x256 .f32 :=
  View.canon (pb_k0_t1 (F := F) Variants.none c none i arg1 harg1 arg2 harg2 arg3 harg3 arg4 harg4 arg5 harg5 arg6 harg6 (harg2.unread x1) nTrips)

/-- The vector the body stores into the output block. -/
def stored (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) : FVec F S128 .f32 :=
  k0_pay1 (k0_pay3 (scratchAfter c i arg1 harg1 arg2 harg2 arg3 harg3 arg4 harg4 arg5 harg5 arg6 harg6 x1)) (k0_pay4 x0 x2 x3)

/-- The body's one piece of the output block: the whole block, at the stored vector. -/
def pieces (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) : List (View.Piece (Elt F) S128 .f32) :=
  [⟨Rect.unit ![0] ![128] inb_S128_S128_0, stored c i arg1 harg1 arg2 harg2 arg3 harg3 arg4 harg4 arg5 harg5 arg6 harg6 x0 x1 x2 x3⟩]

/-- The scratch read back whole after the sixteen stores is their canon, whatever it held before: they cover it. -/
theorem scratch_read (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x1 : Vec F S1x256x512 .f32) (fs0 : BufTy.Contents (Elt F) arg6.view.ty) :
    View.readAt (Elt F) arg6.view (Rect.unit ![0, 0] S256x256.size inb_S256x256_S256x256_0_0).toLoadRect
        (arg6.view.writes (Elt F) fs0 (pb_k0_t1 (F := F) Variants.none c none i arg1 harg1 arg2 harg2 arg3 harg3 arg4 harg4 arg5 harg5 arg6 harg6 (harg2.unread x1) nTrips))
      = scratchAfter c i arg1 harg1 arg2 harg2 arg3 harg3 arg4 harg4 arg5 harg5 arg6 harg6 x1 := by
  unfold scratchAfter
  rw [View.readAt_eq_ld, View.read_writes_eq_canon _ _ _ (pb_cover Variants.none c none i arg1 harg1 arg2 harg2 arg3 harg3 arg4 harg4 arg5 harg5 arg6 harg6 (harg2.unread x1))]
  exact View.ld_unit_zero (S := S256x256) hz2 _ _

/-- The piece list with its loads spelt as the run finds them. -/
theorem pieces_eq (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) (fs0 : BufTy.Contents (Elt F) arg6.view.ty) :
    pieces c i arg1 harg1 arg2 harg2 arg3 harg3 arg4 harg4 arg5 harg5 arg6 harg6 x0 x1 x2 x3
      = [⟨Rect.unit ![0] ![128] inb_S128_S128_0,
          k0_pay1
            (k0_pay3
              (View.readAt (Elt F) arg6.view (Rect.unit ![0, 0] S256x256.size inb_S256x256_S256x256_0_0).toLoadRect
                (arg6.view.writes (Elt F) fs0
                  (pb_k0_t1 (F := F) Variants.none c none i arg1 harg1 arg2 harg2 arg3 harg3 arg4 harg4 arg5 harg5 arg6 harg6 (harg2.unread x1) nTrips))))
            (k0_pay4
              (View.readAt (Elt F) arg1.view (Rect.unit ![0, 0, 0] S1x256x512.size inb_S1x256x512_S1x256x512_0_0_0).toLoadRect (harg1.unread x0))
              (View.readAt (Elt F) arg3.view (Rect.unit ![0, 0] S512x512.size inb_S512x512_S512x512_0_0).toLoadRect (harg3.unread x2))
              (View.readAt (Elt F) arg4.view (Rect.unit ![0, 0] S1x512.size inb_S1x512_S1x512_0_0).toLoadRect (harg4.unread x3)))⟩] := by
  rw [scratch_read]
  simp only [View.readAt_eq_ld, harg1.read_unread, harg3.read_unread, harg4.read_unread,
    View.ld_unit_zero (S := S1x256x512) hz3, View.ld_unit_zero (S := S512x512) hz2, View.ld_unit_zero (S := S1x512) hz2]
  rfl

/-! ## The body's run -/

set_option maxHeartbeats 4000000 in
/-- On whole staging memrefs — the inputs' at their contents, the output's and the scratch at anything — the body runs
    to the continuation holding the inputs' as they were, the scratch at some contents, and the output's buffer with
    the one piece written. -/
theorem kernelRun (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole) (x0 : Vec F S1x256x512 .f32) (x1 : Vec F S1x256x512 .f32) (x2 : Vec F S512x512 .f32) (x3 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f (pieces c i arg1 harg1 arg2 harg2 arg3 harg3 arg4 harg4 arg5 harg5 arg6 harg6 x0 x1 x2 x3)) ∗ (∃ d, owns (c : Thread nD τ) arg6 fullShare d)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg1.eq_unread hf0; obtain rfl := harg2.eq_unread hf1; obtain rfl := harg3.eq_unread hf2; obtain rfl := harg4.eq_unread hf3
  sl_exec
  sl_step
  sl_unfold_run_names
  rw [pieces_eq c i arg1 harg1 arg2 harg2 arg3 harg3 arg4 harg4 arg5 harg5 arg6 harg6 x0 x1 x2 x3 fs0]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]; · iexists _; iexact H4
  iexists _, _; isplitr; swap; · iexact HS0
  ipureintro; rfl

/-! ## What the output holds after each point, the proof data, the obligation, the run -/

/-- The body's one piece is the whole output block, so it covers it. -/
theorem cover0_A_4 (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)
    (x0 : Vec F S1x256x512 .f32) (x1 : Vec F S1x256x512 .f32) (x2 : Vec F S512x512 .f32) (x3 : Vec F S1x512 .f32) (y : S128.Idx) :
    ∃ pc ∈ (pieces c i arg1 harg1 arg2 harg2 arg3 harg3 arg4 harg4 arg5 harg5 arg6 harg6 x0 x1 x2 x3), y ∈ pc.1.set := by
  unfold pieces
  exact ⟨_, List.mem_singleton_self _, View.mem_set_unit_zero (S := S128) hz1 inb_S128_S128_0 y⟩

/-- What the body leaves in the output's staging buffer: its one piece read back. -/
def out0_A_4 (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)
    (x0 : Vec F S1x256x512 .f32) (x1 : Vec F S1x256x512 .f32) (x2 : Vec F S512x512 .f32) (x3 : Vec F S1x512 .f32) : Vec F S128 .f32 :=
  VO0_4.read (Elt F) (VO0_4.writes (Elt F) VO0_4.junk (pieces c i arg1 harg1 arg2 harg2 arg3 harg3 arg4 harg4 arg5 harg5 arg6 harg6 x0 x1 x2 x3))

/-! ## What the outputs hold after each point -/

/-- What the outputs' staging buffers hold after the body at point `t`: the run's contents at
    the point's memrefs and input blocks. -/
def outsAt0 (c : Dev nD) (t : Fin cfg0.N) : Vec F S128 .f32 :=
  out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)

/-! ## The pipeline's proof data -/

/-- The proof data of the one pipeline on core `c`: the arrays as the region finds them; after the body at point `t`
    each input's buffer at its block and the output's at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_A_4
  iintro ⟨⟨HS0, Hg⟩, Ho, ⟨%d0, H0⟩, ⟨%d1, H1⟩, ⟨%d2, H2⟩, ⟨%d3, H3⟩, ⟨%d4, H4⟩⟩
  iapply (kernelRun c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main
    terminates, and every final state has every array of the pipeline at what the proof data gives and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Body.run_main' depends on axioms: [propext, Classical.choice, Quot.sound] -/
#guard_msgs in #print axioms run_main

/-- The frame claim at any `F`: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  One batch of the patch-classification loss, as a function on extended reals, entry by entry.

  A batch has 256 patches. Its label rows `l i` (512 numbers each) give a target distribution: the L1 distance of
  two rows is the sum of the absolute differences of their entries; `same l i j` is 1 when that distance is zero and
  0 otherwise, and row `i` of the target is `same l i ·` divided by the number of rows that coincide with row `i`.
  Its input rows `a p` go through a linear layer (`feat`: the row times the transposed weight, plus the bias), are
  scaled to unit length (the length floored at a tiny constant), and the cosine scores of all pairs, divided by the
  temperature, are turned into probabilities row by row by a softmax taken after subtracting the row's maximum, then
  clipped to [lo, hi]. The batch's loss is the sum over all pairs (p, q) with positive target of
  target · (log target − log probability). The whole loss adds the four batches and divides by the number of patches.

  Every constant is kept as the 32-bit word both programs spell, read as the extended real it denotes.
-/
import Idealize.ShloMosaic.PureOps.Ideal
import Idealize.ShloMosaic.PureOps.Ideal.Laws

noncomputable section

open scoped BigOperators

namespace Cert.PatchLoss

open Idealize.ShloMosaic

/-- The words the two programs share, as extended reals: zero, one, the floor under a feature row's length, the
    temperature, the two clipping bounds, minus infinity, and the number of patches (4 · 256). -/
abbrev zero32 : EReal := Ideal.ofBits .f32 0x00000000#32
abbrev one32 : EReal := Ideal.ofBits .f32 0x3F800000#32
abbrev tiny : EReal := Ideal.ofBits .f32 0x2B8CBCCC#32
abbrev tau : EReal := Ideal.ofBits .f32 0x3D8F5C29#32
abbrev lo : EReal := Ideal.ofBits .f32 0x3727C5AC#32
abbrev hi : EReal := Ideal.ofBits .f32 0x3F7FFF58#32
abbrev negInf : EReal := Ideal.ofBits .f32 0xFF800000#32
abbrev patches : EReal := Ideal.ofBits .f32 0x44800000#32

section Target

variable (l : Fin 256 → Fin 512 → EReal)

/-- The L1 distance of label rows `i` and `j`: the sum over the 512 entries of |l i f − l j f|, the absolute value
    written as the larger of a number and its negative. -/
def l1 (i j : Fin 256) : EReal := ∑ f : Fin 512, max (l i f - l j f) (-(l i f - l j f))

/-- 1 when rows `i` and `j` are at distance zero, else 0. -/
def same (i j : Fin 256) : EReal := (((Ideal.cmp .oeq (l1 l i j) zero32).toNat : ℝ) : EReal)

/-- How many rows coincide with row `i`. -/
def nsame (i : Fin 256) : EReal := ∑ j : Fin 256, same l i j

/-- The target distribution of row `i`: uniform on the rows that coincide with it. -/
def target (i j : Fin 256) : EReal := Ideal.div (same l i j) (nsame l i)

end Target

section Probabilities

variable (a : Fin 256 → Fin 512 → EReal) (w : Fin 512 → Fin 512 → EReal) (b : Fin 512 → EReal)

/-- The linear layer: feature `o` of patch `p` is the inner product of the patch with weight row `o`, plus the bias. -/
def feat (p : Fin 256) (o : Fin 512) : EReal := (∑ f : Fin 512, a p f * w o f) + b o

/-- The squared length of a feature row. -/
def sqnorm (p : Fin 256) : EReal := ∑ o : Fin 512, feat a w b p o * feat a w b p o

/-- The feature row divided by its length, the length floored at `tiny`. -/
def unit (p : Fin 256) (o : Fin 512) : EReal := Ideal.div (feat a w b p o) (max (Ideal.sqrt (sqnorm a w b p)) tiny)

/-- The cosine score of patches `p` and `q` over the temperature. -/
def score (p q : Fin 256) : EReal := Ideal.div (∑ d : Fin 512, unit a w b p d * unit a w b q d) tau

/-- The largest score in row `p` (a fold of `max` from minus infinity). -/
def rowmax (p : Fin 256) : EReal := (Finset.univ : Finset (Fin 256)).fold max negInf (fun q => score a w b p q)

/-- The exponential of a score less its row's maximum. -/
def ex (p q : Fin 256) : EReal := Ideal.exp (score a w b p q - rowmax a w b p)

/-- The row sums of those exponentials. -/
def exsum (p : Fin 256) : EReal := ∑ q : Fin 256, ex a w b p q

/-- The softmax probability, clipped to [lo, hi]. -/
def prob (p q : Fin 256) : EReal := min hi (max lo (Ideal.div (ex a w b p q) (exsum a w b p)))

end Probabilities

section Loss

variable (l : Fin 256 → Fin 512 → EReal) (a : Fin 256 → Fin 512 → EReal) (w : Fin 512 → Fin 512 → EReal) (b : Fin 512 → EReal)

/-- One pair's contribution: target · (log target − log probability) where the target is positive, else zero; inside
    the logarithm a target that is not positive is replaced by one. -/
def term (p q : Fin 256) : EReal :=
  Scalar.select (Ideal.cmp .ogt (target l p q) zero32)
    (target l p q * (Ideal.log (Scalar.select (Ideal.cmp .ogt (target l p q) zero32) (target l p q) one32)
      - Ideal.log (prob a w b p q)))
    zero32

/-- One batch's loss: the sum of all pairs' contributions. -/
def batchLoss : EReal := ∑ p : Fin 256, ∑ q : Fin 256, term l a w b p q

end Loss

/-- The whole loss: the four batches' losses added and divided by the number of patches. -/
def loss (L A : Fin 4 → Fin 256 → Fin 512 → EReal) (w : Fin 512 → Fin 512 → EReal) (b : Fin 512 → EReal) : EReal :=
  Ideal.div (∑ n : Fin 4, batchLoss (L n) (A n) w b) patches

end Cert.PatchLoss

end
-- ==== Proof.KPayTarget.lean ====
/-
  The kernel's distance and target payloads, entry by entry, on extended reals.
-/
import proofs.«176485_j59863254172618_1_alg».proof.Proof.Gen.KernelIdeal.Skeleton
import proofs.«176485_j59863254172618_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.PatchLoss Idealize.ShloMosaic Idealize.ShloMosaic.ValueIdx

/-! ## The chunk of distances -/

variable {α : Type}

/-- A [16,1,512] array broadcast to [16,256,512] reads, at (r, j, f), the operand at (r, 0, f). -/
private theorem bcast_row (x : S16x1x512.Idx → α) (h : S16x1x512.Broadcasts S16x256x512)
    (r : Fin 16) (j : Fin 256) (f : Fin 512) :
    broadcastTo S16x256x512 x h (ix3 r j f) = x (ix3 r (0 : Fin 1) f) := by
  refine broadcastTo_apply x h (ix3 r j f) (ix3 r (0 : Fin 1) f) fun ax => ?_
  match ax with
  | ⟨0, _⟩ => rfl
  | ⟨1, _⟩ => rfl
  | ⟨2, _⟩ => rfl

/-- A [1,256,512] array broadcast to [16,256,512] reads, at (r, j, f), the operand at (0, j, f). -/
private theorem bcast_all (x : S1x256x512.Idx → α) (h : S1x256x512.Broadcasts S16x256x512)
    (r : Fin 16) (j : Fin 256) (f : Fin 512) :
    broadcastTo S16x256x512 x h (ix3 r j f) = x (ix3 (0 : Fin 1) j f) := by
  refine broadcastTo_apply x h (ix3 r j f) (ix3 (0 : Fin 1) j f) fun ax => ?_
  match ax with
  | ⟨0, _⟩ => rfl
  | ⟨1, _⟩ => rfl
  | ⟨2, _⟩ => rfl

/-- A [16,512] array cast to [16,1,512] reads, at (r, u, f), the operand at (r, f). -/
private theorem cast_mid (x : S16x512.Idx → α) (h : S16x512.ShapeCasts S16x1x512)
    (r : Fin 16) (u : Fin 1) (f : Fin 512) :
    shapeCast S16x1x512 x h (ix3 r u f) = x (ix2 r f) :=
  shapeCast_apply x h _ _ (by
    have hu : u.val = 0 := by omega
    rw [Shape.rowMajor_val_three, Shape.rowMajor_val_two]
    show r.val * 512 + f.val = (r.val * 1 + u.val) * 512 + f.val
    rw [hu, Nat.mul_one, Nat.add_zero])

/-- The index a sum over the last axis of a [16,256,512] array inserts. -/
private theorem lift_last (h : S16x256x512.Reduces [2] S16x256) (r : Fin 16) (j : Fin 256) (f : Fin 512) :
    h.lift (ix2 r j) f = ix3 r j f := by
  funext a
  refine Fin.ext ?_
  match a with
  | ⟨0, _⟩ => rfl
  | ⟨1, _⟩ => rfl
  | ⟨2, _⟩ => rfl

/-- The sum over the last axis of a [16,256,512] array, at (r, j), as a sum over the 512 last coordinates. -/
private theorem sum_last (src : FVec Ideal S16x256x512 .f32) (h : S16x256x512.Reduces [2] S16x256)
    (hφ : FKind.Formats .f32) (hacc : (0x00000000#32 : BitVec 32) = FKind.add.neutral .f32 hφ)
    (r : Fin 16) (j : Fin 256) :
    multiReduction .add [2] S16x256 src 0x00000000#32 h hφ hacc (ix2 r j) = ∑ f : Fin 512, src (ix3 r j f) := by
  refine (Ideal.multiReduction_add_single src _ h hφ hacc (ix2 r j)).trans ?_
  exact Finset.sum_congr rfl fun f _ => congrArg src (lift_last h r j f)

/-- One trip's chunk of distances: entry (r, j) is the L1 distance of row r of the chunk and row j of the whole block. -/
theorem pay2_apply (v66 : Vec Ideal S1x16x512 .f32) (v68 : Vec Ideal S1x256x512 .f32) (r : Fin 16) (j : Fin 256) :
    (k0_pay2 (F := Ideal) v66 v68 (ix2 r j) : EReal)
      = ∑ f : Fin 512, max ((v66 (ix3 0 r f) : EReal) - (v68 (ix3 0 j f) : EReal)) (-((v66 (ix3 0 r f) : EReal) - (v68 (ix3 0 j f) : EReal))) := by
  unfold k0_pay2
  rw [shapeCast_self]
  refine (sum_last _ _ _ _ r j).trans ?_
  refine Finset.sum_congr rfl fun f _ => ?_
  show max (_ - _) (-(_ - _)) = _
  rw [bcast_row, bcast_all, cast_mid, shapeCast_ab_1ab_apply, shapeCast_1ab_ab_apply, shapeCast_1ab_ab_apply]

/-! ## The target distribution -/

/-- A [256,1] array broadcast to [256,256] reads, at (i, j), the operand at (i, 0). -/
private theorem bcast_col (x : S256x1.Idx → α) (h : S256x1.Broadcasts S256x256) (i j : Fin 256) :
    broadcastTo S256x256 x h (ix2 i j) = x (ix2 i (0 : Fin 1)) := by
  refine broadcastTo_apply x h (ix2 i j) (ix2 i (0 : Fin 1)) fun ax => ?_
  match ax with
  | ⟨0, _⟩ => rfl
  | ⟨1, _⟩ => rfl

/-- A [256] array cast to [256,1] reads, at (i, u), the operand at i. -/
private theorem cast_col (x : S256.Idx → α) (h : S256.ShapeCasts S256x1) (i : Fin 256) (u : Fin 1) :
    shapeCast S256x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a sum over the columns of a [256,256] array inserts. -/
private theorem lift_col (h : S256x256.Reduces [1] S256) (i k : Fin 256) : h.lift (ix1 i) k = ix2 i k := by
  funext a
  refine Fin.ext ?_
  match a with
  | ⟨0, _⟩ => rfl
  | ⟨1, _⟩ => rfl

/-- The sum over the columns of a [256,256] array, at row i, as a sum over the 256 column coordinates. -/
private theorem sum_row (src : FVec Ideal S256x256 .f32) (h : S256x256.Reduces [1] S256)
    (hφ : FKind.Formats .f32) (hacc : (0x00000000#32 : BitVec 32) = FKind.add.neutral .f32 hφ) (i : Fin 256) :
    multiReduction .add [1] S256 src 0x00000000#32 h hφ hacc (ix1 i) = ∑ k : Fin 256, src (ix2 i k) := by
  refine (Ideal.multiReduction_add_single src _ h hφ hacc (ix1 i)).trans ?_
  exact Finset.sum_congr rfl fun k _ => congrArg src (lift_col h i k)

/-- A one-bit word widened to 32 bits and read as a signed integer is the bit read as a natural number. -/
private theorem bit_real (b : BitVec 1) : (((b.setWidth 32).toInt : ℝ) : EReal) = ((b.toNat : ℝ) : EReal) := by
  have h : (b.setWidth 32).toInt = (b.toNat : ℤ) := by revert b; decide
  rw [h, Int.cast_natCast]

/-- The 0/1 matrix "distance is zero", entry by entry. -/
private theorem ind_apply (D : Vec Ideal S256x256 .f32) (l : Fin 256 → Fin 512 → EReal)
    (hD : ∀ i j : Fin 256, (D (ix2 i j) : EReal) = l1 l i j) (i j : Fin 256) :
    ((sitofp .f32 (extui 32 (cmpf (F := Ideal) .oeq D (broadcast S256x256 (Scalar.ofBits .f32 0x00000000#32 : Ideal .f32))) natLt_1_32)
        : FVec Ideal S256x256 .f32) (ix2 i j) : EReal) = same l i j := by
  show (((((Ideal.cmp .oeq (D (ix2 i j)) zero32).setWidth 32).toInt : ℝ)) : EReal) = _
  rw [bit_real, hD]
  rfl

/-- From the full matrix of L1 distances of the label rows `l`, the target distribution. -/
theorem pay3_apply (D : Vec Ideal S256x256 .f32) (l : Fin 256 → Fin 512 → EReal)
    (hD : ∀ i j : Fin 256, (D (ix2 i j) : EReal) = l1 l i j) (i j : Fin 256) :
    (k0_pay3 (F := Ideal) D (ix2 i j) : EReal) = target l i j := by
  unfold k0_pay3
  rw [divf_apply, bcast_col, cast_col]
  unfold target nsame
  refine congrArg₂ Ideal.div (ind_apply D l hD i j) ?_
  refine (sum_row _ _ _ _ i).trans ?_
  exact Finset.sum_congr rfl fun k _ => ind_apply D l hD i k

end Cert.KernelIdeal.PayValue

end
-- ==== Proof.KLoop.lean ====
/-
  What the sixteen trips of the distance loop leave in the scratch, on extended reals: trip k stores, at rows
  16k … 16k+15, the L1 distances of those label rows to all 256 label rows.
-/
import proofs.«176485_j59863254172618_1_alg».proof.Proof.KCover
import proofs.«176485_j59863254172618_1_alg».proof.Proof.KPayTarget
import Idealize.ShloMosaic.Lib.Pipeline.Value
import Idealize.ShloMosaic.Lib.Pipeline.FrameBody
import Idealize.ShloMosaic.Lib.Tactic

noncomputable section

open scoped BigOperators

namespace Cert.KernelIdeal.LoopValue

open Cert.KernelIdeal Cert.KernelIdeal.Gen Cert.KernelIdeal.LoopCover Cert.PatchLoss Idealize.ShloMosaic Idealize.ShloMosaic.TcCoe Idealize.ShloMosaic.ValueIdx Idealize.SL.Sem

/-- The offsets of the whole-block load are zero on every axis. -/
private theorem off_zero3 : (![0, 0, 0] : Fin 3 → Nat) = fun _ => 0 := by
  funext a
  match a with
  | ⟨0, _⟩ => rfl
  | ⟨1, _⟩ => rfl
  | ⟨2, _⟩ => rfl

/-- Where trip k's chunk load puts its local index (0, r, f): row 16k + r of the block. -/
private theorem chunk_idx (k : Fin k0_t1_loop.trips) (r : Fin 16) (f : Fin 512) (h : 16 * k.val + r.val < 256) :
    (Rect.unit (s := S1x256x512) (k0_off1 k) S1x16x512.size (k0_off1_inb k)).idx (ix3 (0 : Fin 1) r f)
      = ix3 (0 : Fin 1) (⟨16 * k.val + r.val, h⟩ : Fin 256) f := by
  funext a
  refine Fin.ext ?_
  match a with
  | ⟨0, _⟩ =>
    show k0_off1 k 0 + 1 * 0 = 0
    rw [k0_off1_eq]
    rfl
  | ⟨1, _⟩ =>
    show k0_off1 k 1 + 1 * r.val = 16 * k.val + r.val
    rw [k0_off1_eq]
    show 16 * k.val + 1 * r.val = 16 * k.val + r.val
    omega
  | ⟨2, _⟩ =>
    show k0_off1 k 2 + 1 * f.val = f.val
    rw [k0_off1_eq]
    show 0 + 1 * f.val = f.val
    omega

/-- Where trip k's store puts its local index (r, j): entry (16k + r, j) of the scratch. -/
private theorem store_emb (k : Fin k0_t1_loop.trips) (r : Fin 16) (j : Fin 256) (h : 16 * k.val + r.val < 256) :
    (Rect.unit (s := S256x256) (k0_off2 k) S16x256.size (k0_off2_inb k)).emb (ix2 r j)
      = ix2 (⟨16 * k.val + r.val, h⟩ : Fin 256) j := by
  funext a
  refine Fin.ext ?_
  match a with
  | ⟨0, _⟩ =>
    show k0_off2 k 0 + 1 * r.val = 16 * k.val + r.val
    rw [k0_off2_eq]
    show 16 * k.val + 1 * r.val = 16 * k.val + r.val
    omega
  | ⟨1, _⟩ =>
    show k0_off2 k 1 + 1 * j.val = j.val
    rw [k0_off2_eq]
    show 0 + 1 * j.val = j.val
    omega

section

variable (𝒱 : Variants) (c : Dev nD) (bd : Option 𝒱.V) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)

/-- Trip k's payload at its local index (r, j): the L1 distance of label rows 16k + r and j. -/
private theorem tripPiece_apply (X : BufTy.Contents (Elt Ideal) arg2.view.ty) (l : Fin 256 → Fin 512 → EReal)
    (hX : ∀ (p : Fin 256) (f : Fin 512), (arg2.view.read (Elt Ideal) X (ix3 0 p f) : EReal) = l p f)
    (k : Fin k0_t1_loop.trips) (r : Fin 16) (j : Fin 256) (h : 16 * k.val + r.val < 256) :
    ((tripPiece (F := Ideal) arg2 X k).2 (ix2 r j) : EReal) = l1 l ⟨16 * k.val + r.val, h⟩ j := by
  refine (PayValue.pay2_apply _ _ r j).trans ?_
  unfold l1
  refine Finset.sum_congr rfl fun f _ => ?_
  have e1 : (View.ld (arg2.view.read (Elt Ideal) X)
      (Rect.unit (s := S1x256x512) (k0_off1 k) S1x16x512.size (k0_off1_inb k)) (ix3 (0 : Fin 1) r f) : EReal)
        = l ⟨16 * k.val + r.val, h⟩ f := by
    show (arg2.view.read (Elt Ideal) X
      ((Rect.unit (s := S1x256x512) (k0_off1 k) S1x16x512.size (k0_off1_inb k)).idx (ix3 (0 : Fin 1) r f)) : EReal) = _
    rw [chunk_idx k r f h]
    exact hX _ f
  have e2 : (View.ld (arg2.view.read (Elt Ideal) X)
      (Rect.unit (s := S1x256x512) ![0, 0, 0] S1x256x512.size inb_S1x256x512_S1x256x512_0_0_0) (ix3 (0 : Fin 1) j f) : EReal)
        = l j f := by
    rw [View.ld_unit_zero off_zero3]
    exact hX j f
  rw [e1, e2]

/-- On extended reals: if the labels block reads as `l`, the trips leave at (a, b) the L1 distance of rows a and b. -/
theorem pb_canon (X : BufTy.Contents (Elt Ideal) arg2.view.ty) (l : Fin 256 → Fin 512 → EReal)
    (hX : ∀ (p : Fin 256) (f : Fin 512), (arg2.view.read (Elt Ideal) X (ix3 0 p f) : EReal) = l p f) (a b : Fin 256) :
    (View.canon (pb_k0_t1 (F := Ideal) 𝒱 c bd i arg1 harg1 arg2 harg2 arg3 harg3 arg4 harg4 arg5 harg5 arg6 harg6 X nTrips) (ix2 a b) : EReal) = l1 l a b := by
  have ht : k0_t1_loop.trips = 16 := nTrips_eq
  refine View.canon_apply_of_pieces (Val := Elt Ideal) (S := S256x256) (e := .f32)
    (fun y => (l1 l (y 0) (y 1) : EReal)) _ ?_ (ix2 a b) (pb_cover 𝒱 c bd i arg1 harg1 arg2 harg2 arg3 harg3 arg4 harg4 arg5 harg5 arg6 harg6 X (ix2 a b))
  intro p hp x
  obtain ⟨k, -, rfl⟩ := mem_pb 𝒱 c bd i arg1 harg1 arg2 harg2 arg3 harg3 arg4 harg4 arg5 harg5 arg6 harg6 X nTrips (le_refl _) p hp
  obtain ⟨r, j, rfl⟩ : ∃ (r : Fin 16) (j : Fin 256), x = ix2 r j := ⟨x 0, x 1, eq_ix2 x⟩
  have h : 16 * k.val + r.val < 256 := by
    have hk : k.val < 16 := lt_of_lt_of_eq k.isLt ht
    omega
  refine (tripPiece_apply arg2 X l hX k r j h).trans ?_
  show l1 l ⟨16 * k.val + r.val, h⟩ j
    = l1 l (((Rect.unit (s := S256x256) (k0_off2 k) S16x256.size (k0_off2_inb k)).emb (ix2 r j)) 0)
        (((Rect.unit (s := S256x256) (k0_off2 k) S16x256.size (k0_off2_inb k)).emb (ix2 r j)) 1)
  rw [store_emb k r j h]

end

end Cert.KernelIdeal.LoopValue

end
-- ==== Proof.KPayProb.lean ====
/-
  The kernel's softmax and loss payloads, entry by entry, on extended reals.
-/
import proofs.«176485_j59863254172618_1_alg».proof.Proof.Gen.KernelIdeal.Skeleton
import proofs.«176485_j59863254172618_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.PatchLoss Idealize.ShloMosaic Idealize.ShloMosaic.ValueIdx

/-! ### The two products: one contracted axis, axis 1 of both operands -/

private theorem lhs_feat_0 (i : S256x512.Idx) (k : dot_S256x512_S512x512_S256x512_1_1_0_0_n_n.contr.Idx) :
    (dot_S256x512_S512x512_S256x512_1_1_0_0_n_n.lhsIdx i k 0).val = (i 0).val := by
  unfold DotDims.lhsIdx
  rw [dif_neg (show ¬(0 : Fin S256x512.rank) ∈ dot_S256x512_S512x512_S256x512_1_1_0_0_n_n.lhsBatch by decide), dif_pos (show (0 : Fin S256x512.rank) ∈ dot_S256x512_S512x512_S256x512_1_1_0_0_n_n.lhsNonContracting by decide)]
  rfl
private theorem lhs_feat_1 (i : S256x512.Idx) (k : dot_S256x512_S512x512_S256x512_1_1_0_0_n_n.contr.Idx) :
    (dot_S256x512_S512x512_S256x512_1_1_0_0_n_n.lhsIdx i k 1).val = (k ⟨0, by decide⟩).val :=
  dot_S256x512_S512x512_S256x512_1_1_0_0_n_n.lhsIdx_val_of_single rfl i k
private theorem rhs_feat_0 (i : S256x512.Idx) (k : dot_S256x512_S512x512_S256x512_1_1_0_0_n_n.contr.Idx) :
    (dot_S256x512_S512x512_S256x512_1_1_0_0_n_n.rhsIdx i k 0).val = (i 1).val := by
  unfold DotDims.rhsIdx
  rw [dif_neg (show ¬(0 : Fin S512x512.rank) ∈ dot_S256x512_S512x512_S256x512_1_1_0_0_n_n.rhsBatch by decide), dif_pos (show (0 : Fin S512x512.rank) ∈ dot_S256x512_S512x512_S256x512_1_1_0_0_n_n.rhsNonContracting by decide)]
  rfl
private theorem rhs_feat_1 (i : S256x512.Idx) (k : dot_S256x512_S512x512_S256x512_1_1_0_0_n_n.contr.Idx) :
    (dot_S256x512_S512x512_S256x512_1_1_0_0_n_n.rhsIdx i k 1).val = (k ⟨0, by decide⟩).val :=
  dot_S256x512_S512x512_S256x512_1_1_0_0_n_n.rhsIdx_val_of_single rfl i k

/-- The first product into a zero accumulator: entry (p, o) is the sum over f of lhs (p, f) · rhs (o, f). -/
private theorem matmul_feat_apply (L : FVec Ideal S256x512 .bf16) (R : FVec Ideal S512x512 .bf16) (p : Fin 256) (o : Fin 512) :
    matmul dot_S256x512_S512x512_S256x512_1_1_0_0_n_n none L R (constant (F := Ideal) S256x512 .f32 0x00000000#32) (ix2 p o)
      = ∑ f : Fin 512, L (ix2 p f) * R (ix2 o f) := by
  show FloatOps.matmul dot_S256x512_S512x512_S256x512_1_1_0_0_n_n none L R (constant (F := Ideal) S256x512 .f32 0x00000000#32) (ix2 p o) = _
  rw [Ideal.matmul_constant_zero_apply, ← Equiv.sum_comp (contrEquiv1 dot_S256x512_S512x512_S256x512_1_1_0_0_n_n 512 rfl rfl).symm]
  refine Finset.sum_congr rfl fun f _ => ?_
  have hf := contrEquiv1_symm_val dot_S256x512_S512x512_S256x512_1_1_0_0_n_n 512 rfl rfl f
  have el : dot_S256x512_S512x512_S256x512_1_1_0_0_n_n.lhsIdx (ix2 p o) ((contrEquiv1 dot_S256x512_S512x512_S256x512_1_1_0_0_n_n 512 rfl rfl).symm f) = ix2 p f := funext fun a => Fin.ext (by
    match a with
    | ⟨0, _⟩ => exact lhs_feat_0 _ _
    | ⟨1, _⟩ => exact (lhs_feat_1 _ _).trans hf)
  have er : dot_S256x512_S512x512_S256x512_1_1_0_0_n_n.rhsIdx (ix2 p o) ((contrEquiv1 dot_S256x512_S512x512_S256x512_1_1_0_0_n_n 512 rfl rfl).symm f) = ix2 o f := funext fun a => Fin.ext (by
    match a with
    | ⟨0, _⟩ => exact rhs_feat_0 _ _
    | ⟨1, _⟩ => exact (rhs_feat_1 _ _).trans hf)
  rw [el, er]

private theorem lhs_gram_0 (i : S256x256.Idx) (k : dot_S256x512_S256x512_S256x256_1_1_0_0_n_n.contr.Idx) :
    (dot_S256x512_S256x512_S256x256_1_1_0_0_n_n.lhsIdx i k 0).val = (i 0).val := by
  unfold DotDims.lhsIdx
  rw [dif_neg (show ¬(0 : Fin S256x512.rank) ∈ dot_S256x512_S256x512_S256x256_1_1_0_0_n_n.lhsBatch by decide), dif_pos (show (0 : Fin S256x512.rank) ∈ dot_S256x512_S256x512_S256x256_1_1_0_0_n_n.lhsNonContracting by decide)]
  rfl
private theorem lhs_gram_1 (i : S256x256.Idx) (k : dot_S256x512_S256x512_S256x256_1_1_0_0_n_n.contr.Idx) :
    (dot_S256x512_S256x512_S256x256_1_1_0_0_n_n.lhsIdx i k 1).val = (k ⟨0, by decide⟩).val :=
  dot_S256x512_S256x512_S256x256_1_1_0_0_n_n.lhsIdx_val_of_single rfl i k
private theorem rhs_gram_0 (i : S256x256.Idx) (k : dot_S256x512_S256x512_S256x256_1_1_0_0_n_n.contr.Idx) :
    (dot_S256x512_S256x512_S256x256_1_1_0_0_n_n.rhsIdx i k 0).val = (i 1).val := by
  unfold DotDims.rhsIdx
  rw [dif_neg (show ¬(0 : Fin S256x512.rank) ∈ dot_S256x512_S256x512_S256x256_1_1_0_0_n_n.rhsBatch by decide), dif_pos (show (0 : Fin S256x512.rank) ∈ dot_S256x512_S256x512_S256x256_1_1_0_0_n_n.rhsNonContracting by decide)]
  rfl
private theorem rhs_gram_1 (i : S256x256.Idx) (k : dot_S256x512_S256x512_S256x256_1_1_0_0_n_n.contr.Idx) :
    (dot_S256x512_S256x512_S256x256_1_1_0_0_n_n.rhsIdx i k 1).val = (k ⟨0, by decide⟩).val :=
  dot_S256x512_S256x512_S256x256_1_1_0_0_n_n.rhsIdx_val_of_single rfl i k

/-- The second product into a zero accumulator: entry (p, q) is the sum over d of lhs (p, d) · rhs (q, d). -/
private theorem matmul_gram_apply (L R : FVec Ideal S256x512 .bf16) (p q : Fin 256) :
    matmul dot_S256x512_S256x512_S256x256_1_1_0_0_n_n none L R (constant (F := Ideal) S256x256 .f32 0x00000000#32) (ix2 p q)
      = ∑ d : Fin 512, L (ix2 p d) * R (ix2 q d) := by
  show FloatOps.matmul dot_S256x512_S256x512_S256x256_1_1_0_0_n_n none L R (constant (F := Ideal) S256x256 .f32 0x00000000#32) (ix2 p q) = _
  rw [Ideal.matmul_constant_zero_apply, ← Equiv.sum_comp (contrEquiv1 dot_S256x512_S256x512_S256x256_1_1_0_0_n_n 512 rfl rfl).symm]
  refine Finset.sum_congr rfl fun d _ => ?_
  have hd := contrEquiv1_symm_val dot_S256x512_S256x512_S256x256_1_1_0_0_n_n 512 rfl rfl d
  have el : dot_S256x512_S256x512_S256x256_1_1_0_0_n_n.lhsIdx (ix2 p q) ((contrEquiv1 dot_S256x512_S256x512_S256x256_1_1_0_0_n_n 512 rfl rfl).symm d) = ix2 p d := funext fun a => Fin.ext (by
    match a with
    | ⟨0, _⟩ => exact lhs_gram_0 _ _
    | ⟨1, _⟩ => exact (lhs_gram_1 _ _).trans hd)
  have er : dot_S256x512_S256x512_S256x256_1_1_0_0_n_n.rhsIdx (ix2 p q) ((contrEquiv1 dot_S256x512_S256x512_S256x256_1_1_0_0_n_n 512 rfl rfl).symm d) = ix2 q d := funext fun a => Fin.ext (by
    match a with
    | ⟨0, _⟩ => exact rhs_gram_0 _ _
    | ⟨1, _⟩ => exact (rhs_gram_1 _ _).trans hd)
  rw [el, er]

/-! ### Reductions along the lanes, and the column forms that keep the reduced axis -/

/-- A lane sum of a [256, 512] vector: entry p is the sum over o of the entry (p, o). -/
private theorem rowsum512_apply (v : FVec Ideal S256x512 .f32) (hacc : (0x00000000#32 : BitVec 32) = 0x00000000#32) (p : Fin 256) :
    multiReduction .add [1] S256 v 0x00000000#32 reduces_S256x512_S256 (.inl rfl) hacc (ix1 p) = ∑ o : Fin 512, v (ix2 p o) := by
  refine (Ideal.multiReduction_add_single v 0x00000000#32 reduces_S256x512_S256 (.inl rfl) hacc (ix1 p)).trans ?_
  refine Finset.sum_congr rfl fun o _ => congrArg v (funext fun a => Fin.ext ?_)
  match a with
  | ⟨0, _⟩ => rfl
  | ⟨1, _⟩ => rfl

/-- A lane sum of a [256, 256] vector: entry p is the sum over q of the entry (p, q). -/
private theorem rowsum256_apply (v : FVec Ideal S256x256 .f32) (hacc : (0x00000000#32 : BitVec 32) = 0x00000000#32) (p : Fin 256) :
    multiReduction .add [1] S256 v 0x00000000#32 reduces_S256x256_S256 (.inl rfl) hacc (ix1 p) = ∑ q : Fin 256, v (ix2 p q) := by
  refine (Ideal.multiReduction_add_single v 0x00000000#32 reduces_S256x256_S256 (.inl rfl) hacc (ix1 p)).trans ?_
  refine Finset.sum_congr rfl fun q _ => congrArg v (funext fun a => Fin.ext ?_)
  match a with
  | ⟨0, _⟩ => rfl
  | ⟨1, _⟩ => rfl

/-- A lane maximum of a [256, 256] vector: entry p is the fold of max, from the accumulator's value, over the entries (p, q). -/
private theorem rowmax256_apply (v : FVec Ideal S256x256 .f32) (hacc : (0xFF800000#32 : BitVec 32) = 0xFF800000#32) (p : Fin 256) :
    multiReduction .maximumf [1] S256 v 0xFF800000#32 reduces_S256x256_S256 (.inl rfl) hacc (ix1 p)
      = (Finset.univ : Finset (Fin 256)).fold max negInf (fun q => v (ix2 p q)) := by
  refine (Ideal.multiReduction_maximumf_single v 0xFF800000#32 reduces_S256x256_S256 (.inl rfl) hacc (ix1 p)).trans ?_
  refine congrArg (fun g : Fin 256 → EReal => (Finset.univ : Finset (Fin 256)).fold max negInf g) (funext fun q => congrArg v (funext fun a => Fin.ext ?_))
  match a with
  | ⟨0, _⟩ => rfl
  | ⟨1, _⟩ => rfl

/-- A [256] vector cast to a [256, 1] column reads, at (p, u), the vector at p. -/
private theorem column_apply {α : Type} (v : S256.Idx → α) (p : Fin 256) (u : Fin 1) :
    shapeCast S256x1 v shapeCasts_S256_S256x1 (ix2 p u) = v (ix1 p) :=
  shapeCast_apply v shapeCasts_S256_S256x1 _ _ (by
    have hu : u.val = 0 := by omega
    rw [Shape.rowMajor_val_two, Shape.rowMajor_val_one]
    show p.val = p.val * 1 + u.val
    rw [hu, Nat.mul_one, Nat.add_zero])

/-- A [256, 1] column broadcast along 512 lanes reads, at (p, o), the column at p. -/
private theorem spread512_apply {α : Type} (c : S256x1.Idx → α) (p : Fin 256) (o : Fin 512) :
    broadcastTo S256x512 c broadcasts_S256x1_S256x512 (ix2 p o) = c (ix2 p (0 : Fin 1)) := by
  refine broadcastTo_apply c broadcasts_S256x1_S256x512 (ix2 p o) (ix2 p (0 : Fin 1)) fun ax => ?_
  match ax with
  | ⟨0, _⟩ =>
    show p.val = if (256 : Nat) = 1 then 0 else p.val
    rw [if_neg (by decide)]
  | ⟨1, _⟩ =>
    show 0 = if (1 : Nat) = 1 then 0 else o.val
    rw [if_pos rfl]

/-- A [256, 1] column broadcast along 256 lanes reads, at (p, q), the column at p. -/
private theorem spread256_apply {α : Type} (c : S256x1.Idx → α) (p q : Fin 256) :
    broadcastTo S256x256 c broadcasts_S256x1_S256x256 (ix2 p q) = c (ix2 p (0 : Fin 1)) := by
  refine broadcastTo_apply c broadcasts_S256x1_S256x256 (ix2 p q) (ix2 p (0 : Fin 1)) fun ax => ?_
  match ax with
  | ⟨0, _⟩ =>
    show p.val = if (256 : Nat) = 1 then 0 else p.val
    rw [if_neg (by decide)]
  | ⟨1, _⟩ =>
    show 0 = if (1 : Nat) = 1 then 0 else q.val
    rw [if_pos rfl]

/-- The index set of a [1, 256, 256] vector is the product of its two long coordinate ranges. -/
private def idxEquiv1ab : S1x256x256.Idx ≃ Fin 256 × Fin 256 where
  toFun i := (i 1, i 2)
  invFun pq := ix3 (0 : Fin 1) pq.1 pq.2
  left_inv i := by
    funext a
    match a with
    | ⟨0, _⟩ => exact Fin.ext (by have h0 : (i 0).val < 1 := (i 0).isLt; show 0 = (i 0).val; omega)
    | ⟨1, _⟩ => rfl
    | ⟨2, _⟩ => rfl
  right_inv _ := rfl

/-- The sum of a [256, 256] vector, cast to [1, 256, 256], over both long axes into one entry: the double sum. -/
private theorem total_apply (v : FVec Ideal S256x256 .f32) (hacc : (0x00000000#32 : BitVec 32) = 0x00000000#32) (j : S1.Idx) :
    multiReduction .add [1, 2] S1 (shapeCast S1x256x256 v shapeCasts_S256x256_S1x256x256) 0x00000000#32 reduces_S1x256x256_S1 (.inl rfl) hacc j
      = ∑ p : Fin 256, ∑ q : Fin 256, v (ix2 p q) := by
  refine (Ideal.multiReduction_add_total _ 0x00000000#32 reduces_S1x256x256_S1 (fun b => by match b with | ⟨0, _⟩ => rfl) (.inl rfl) hacc j).trans ?_
  rw [← Fintype.sum_prod_type']
  refine Fintype.sum_equiv idxEquiv1ab _ _ fun i => ?_
  have hi : i = ix3 (0 : Fin 1) (i 1) (i 2) := (idxEquiv1ab.left_inv i).symm
  rw [hi]
  exact shapeCast_ab_1ab_apply v shapeCasts_S256x256_S1x256x256 (0 : Fin 1) (i 1) (i 2)

/-! ### The softmax payload, stage by stage -/

section Stages
variable {F : FTy → Type} [FloatOps F]

/-- The linear layer's output block: the product of the input block and the weight, plus the bias row on every row. -/
private def featV (v10 : Vec F S1x256x512 .f32) (v13 : Vec F S512x512 .f32) (v16 : Vec F S1x512 .f32) : FVec F S256x512 .f32 :=
  addf
    (matmul dot_S256x512_S512x512_S256x512_1_1_0_0_n_n none
      (truncf .bf16 (shapeCast S256x512 v10 shapeCasts_S1x256x512_S256x512) bitsLt_bf16_f32) (truncf .bf16 v13 bitsLt_bf16_f32)
      (constant S256x512 .f32 0x00000000#32))
    (broadcastTo S256x512 (shapeCast S1x512 v16 shapeCasts_S1x512_S1x512) broadcasts_S1x512_S256x512)

/-- Each row divided by its length, the length floored. -/
private def unitV (v19 : FVec F S256x512 .f32) : FVec F S256x512 .f32 :=
  divf v19
    (broadcastTo S256x512
      (maximumf
        (sqrt (shapeCast S256x1 (multiReduction .add [1] S256 (mulf v19 v19) 0x00000000#32 reduces_S256x512_S256 (.inl rfl) rfl) shapeCasts_S256_S256x1))
        (broadcast S256x1 (Scalar.ofBits .f32 0x2B8CBCCC#32)))
      broadcasts_S256x1_S256x512)

/-- All pairs' inner products over the temperature. -/
private def scoreV (v27 : FVec F S256x512 .f32) : FVec F S256x256 .f32 :=
  divf
    (matmul dot_S256x512_S256x512_S256x256_1_1_0_0_n_n none (truncf .bf16 v27 bitsLt_bf16_f32) (truncf .bf16 v27 bitsLt_bf16_f32)
      (constant S256x256 .f32 0x00000000#32))
    (broadcast S256x256 (Scalar.ofBits .f32 0x3D8F5C29#32))

/-- The exponentials of the scores less their row maxima. -/
private def exV (v31 : FVec F S256x256 .f32) : FVec F S256x256 .f32 :=
  exp (subf v31
    (broadcastTo S256x256
      (shapeCast S256x1 (multiReduction .maximumf [1] S256 v31 0xFF800000#32 reduces_S256x256_S256 (.inl rfl) rfl) shapeCasts_S256_S256x1)
      broadcasts_S256x1_S256x256))

/-- The payload is the four stages in turn. -/
private theorem pay4_eq_stages (v10 : Vec F S1x256x512 .f32) (v13 : Vec F S512x512 .f32) (v16 : Vec F S1x512 .f32) :
    k0_pay4 v10 v13 v16 = exV (scoreV (unitV (featV v10 v13 v16))) := rfl

end Stages

section AtIdeal
variable (x0 : Vec Ideal S1x256x512 .f32) (x2 : Vec Ideal S512x512 .f32) (x3 : Vec Ideal S1x512 .f32)

private theorem featV_apply (p : Fin 256) (o : Fin 512) :
    (featV x0 x2 x3 (ix2 p o) : EReal)
      = feat (fun p f => (x0 (ix3 0 p f) : EReal)) (fun o f => (x2 (ix2 o f) : EReal)) (fun o => (x3 (ix2 0 o) : EReal)) p o := by
  unfold featV feat
  rw [addf_apply, matmul_feat_apply, shapeCast_self, broadcastTo_1b_ab_apply]
  refine congrArg (· + (x3 (ix2 0 o) : EReal)) (Finset.sum_congr rfl fun f _ => ?_)
  rw [truncf_apply, truncf_apply, shapeCast_1ab_ab_apply]

private theorem unitV_apply (v19 : FVec Ideal S256x512 .f32) (ft : Fin 256 → Fin 512 → EReal) (h : ∀ p o, v19 (ix2 p o) = ft p o)
    (p : Fin 256) (o : Fin 512) :
    unitV v19 (ix2 p o) = Ideal.div (ft p o) (max (Ideal.sqrt (∑ o : Fin 512, ft p o * ft p o)) tiny) := by
  unfold unitV
  rw [divf_apply, spread512_apply, maximumf_apply, h]
  refine congrArg (fun z => Ideal.div (ft p o) (max z tiny)) ?_
  show Ideal.sqrt (shapeCast S256x1 _ shapeCasts_S256_S256x1 (ix2 p (0 : Fin 1))) = _
  rw [column_apply, rowsum512_apply]
  refine congrArg Ideal.sqrt (Finset.sum_congr rfl fun o _ => ?_)
  rw [mulf_apply, h]

private theorem scoreV_apply (v27 : FVec Ideal S256x512 .f32) (un : Fin 256 → Fin 512 → EReal) (h : ∀ p o, v27 (ix2 p o) = un p o)
    (p q : Fin 256) :
    scoreV v27 (ix2 p q) = Ideal.div (∑ d : Fin 512, un p d * un q d) tau := by
  unfold scoreV
  rw [divf_apply, matmul_gram_apply]
  refine congrArg (fun z => Ideal.div z tau) (Finset.sum_congr rfl fun d _ => ?_)
  rw [truncf_apply, truncf_apply, h, h]

private theorem exV_apply (v31 : FVec Ideal S256x256 .f32) (sc : Fin 256 → Fin 256 → EReal) (h : ∀ p q, v31 (ix2 p q) = sc p q)
    (p q : Fin 256) :
    exV v31 (ix2 p q) = Ideal.exp (sc p q - (Finset.univ : Finset (Fin 256)).fold max negInf (fun q => sc p q)) := by
  unfold exV
  show Ideal.exp (v31 (ix2 p q) - broadcastTo S256x256 _ broadcasts_S256x1_S256x256 (ix2 p q)) = _
  rw [spread256_apply, column_apply, rowmax256_apply, h]
  refine congrArg (fun g : Fin 256 → EReal => Ideal.exp (sc p q - (Finset.univ : Finset (Fin 256)).fold max negInf g)) (funext fun q => h p q)

end AtIdeal

/-- The exponentials of the scores less their row maxima, from the input block, the weight and the bias row. -/
theorem pay4_apply (x0 : Vec Ideal S1x256x512 .f32) (x2 : Vec Ideal S512x512 .f32) (x3 : Vec Ideal S1x512 .f32) (p q : Fin 256) :
    (k0_pay4 (F := Ideal) x0 x2 x3 (ix2 p q) : EReal)
      = ex (fun p f => (x0 (ix3 0 p f) : EReal)) (fun o f => (x2 (ix2 o f) : EReal)) (fun o => (x3 (ix2 0 o) : EReal)) p q := by
  rw [pay4_eq_stages]
  refine (exV_apply _ _ (fun p q => scoreV_apply _ _ (fun p o => unitV_apply _ _ (featV_apply x0 x2 x3) p o) p q) p q).trans ?_
  rfl

/-! ### The loss payload, stage by stage -/

section LossStages
variable {F : FTy → Type} [FloatOps F]

/-- The exponentials over their row sums, clipped. -/
private def probV (v36 : FVec F S256x256 .f32) : FVec F S256x256 .f32 :=
  minimumf (broadcast S256x256 (Scalar.ofBits .f32 0x3F7FFF58#32))
    (maximumf (broadcast S256x256 (Scalar.ofBits .f32 0x3727C5AC#32))
      (divf v36
        (broadcastTo S256x256
          (shapeCast S256x1 (multiReduction .add [1] S256 v36 0x00000000#32 reduces_S256x256_S256 (.inl rfl) rfl) shapeCasts_S256_S256x1)
          broadcasts_S256x1_S256x256)))

/-- Every pair's contribution: where the target is positive, the target times the difference of the two logarithms, else zero. -/
private def termV (v9 v44 : FVec F S256x256 .f32) : FVec F S256x256 .f32 :=
  select (cmpf .ogt v9 (broadcast S256x256 (Scalar.ofBits .f32 0x00000000#32)))
    (mulf v9
      (subf
        (log (select (cmpf .ogt v9 (broadcast S256x256 (Scalar.ofBits .f32 0x00000000#32))) v9
          (broadcast S256x256 (Scalar.ofBits .f32 0x3F800000#32))))
        (log v44)))
    (broadcast S256x256 (Scalar.ofBits .f32 0x00000000#32))

/-- The sum of all contributions, on every one of the 128 lanes. -/
private def lanesV (v56 : FVec F S256x256 .f32) : FVec F S128 .f32 :=
  broadcast S128
    (extractAt ![0, 0, 0]
      (shapeCast S1x1x1
        (multiReduction .add [1, 2] S1 (shapeCast S1x256x256 v56 shapeCasts_S256x256_S1x256x256) 0x00000000#32 reduces_S1x256x256_S1 (.inl rfl) rfl)
        shapeCasts_S1_S1x1x1)
      inpos_S1x1x1_p0_0_0)

/-- The payload is the three stages in turn. -/
private theorem pay1_eq_stages (v9 v36 : FVec F S256x256 .f32) : k0_pay1 v9 v36 = lanesV (termV v9 (probV v36)) := rfl

end LossStages

private theorem probV_apply (v36 : FVec Ideal S256x256 .f32) (e : Fin 256 → Fin 256 → EReal) (h : ∀ p q, v36 (ix2 p q) = e p q)
    (p q : Fin 256) :
    probV v36 (ix2 p q) = min hi (max lo (Ideal.div (e p q) (∑ q : Fin 256, e p q))) := by
  unfold probV
  rw [minimumf_apply, maximumf_apply, divf_apply, spread256_apply, column_apply, rowsum256_apply, h]
  refine congrArg (fun z => min hi (max lo (Ideal.div (e p q) z))) (Finset.sum_congr rfl fun q _ => h p q)

private theorem termV_apply (v9 v44 : FVec Ideal S256x256 .f32) (t pr : Fin 256 → Fin 256 → EReal)
    (h9 : ∀ p q, v9 (ix2 p q) = t p q) (h44 : ∀ p q, v44 (ix2 p q) = pr p q) (p q : Fin 256) :
    termV v9 v44 (ix2 p q)
      = Scalar.select (Ideal.cmp .ogt (t p q) zero32)
          (t p q * (Ideal.log (Scalar.select (Ideal.cmp .ogt (t p q) zero32) (t p q) one32) - Ideal.log (pr p q))) zero32 := by
  unfold termV
  show Scalar.select (Ideal.cmp .ogt (v9 (ix2 p q)) zero32)
      (v9 (ix2 p q) * (Ideal.log (Scalar.select (Ideal.cmp .ogt (v9 (ix2 p q)) zero32) (v9 (ix2 p q)) one32) - Ideal.log (v44 (ix2 p q)))) zero32 = _
  rw [h9, h44]

private theorem lanesV_apply (v56 : FVec Ideal S256x256 .f32) (y : S128.Idx) :
    lanesV v56 y = ∑ p : Fin 256, ∑ q : Fin 256, v56 (ix2 p q) := by
  unfold lanesV
  rw [broadcast_apply]
  unfold extractAt
  refine (shapeCast_apply _ shapeCasts_S1_S1x1x1 _ (ix1 (0 : Fin 1)) ?_).trans (total_apply v56 rfl _)
  rw [Shape.rowMajor_val_one, Shape.rowMajor_val_three]
  rfl

/-- From the target distribution and the exponentials, every lane of the stored vector is the batch's loss. -/
theorem pay1_apply (v9 v36 : FVec Ideal S256x256 .f32) (l a : Fin 256 → Fin 512 → EReal) (w : Fin 512 → Fin 512 → EReal) (b : Fin 512 → EReal)
    (h9 : ∀ p q : Fin 256, (v9 (ix2 p q) : EReal) = target l p q) (h36 : ∀ p q : Fin 256, (v36 (ix2 p q) : EReal) = ex a w b p q) (y : S128.Idx) :
    (k0_pay1 (F := Ideal) v9 v36 y : EReal) = batchLoss l a w b := by
  rw [pay1_eq_stages]
  refine (lanesV_apply _ y).trans ?_
  unfold batchLoss
  refine Finset.sum_congr rfl fun p _ => Finset.sum_congr rfl fun q _ => ?_
  refine (termV_apply v9 _ _ _ h9 (probV_apply v36 _ h36) p q).trans ?_
  rfl

end Cert.KernelIdeal.PayValue

end
-- ==== Proof.KBlocks.lean ====
/-
  What each input window's block holds at grid point t, entry by entry, in terms of the arguments as launched:
  point t sees batch t of the inputs and of the labels, the whole weight, and the bias as one row.
-/
import proofs.«176485_j59863254172618_1_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.BlockValue

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid has four points. -/
theorem t_lt (t : Fin cfg0.N) : t.val < 4 := by have h : cfg0.N = 4 := N_0; have := t.isLt; omega

/-- The printed index maps, decided once over the four grid points: windows 0 and 1 sit at block index (t, 0, 0)
    at point t; windows 2 and 3 at (0, 0) at every point. -/
private theorem idx0 : ∀ t : Fin cfg0.N, win0_0.index t 0 = t.val ∧ win0_0.index t 1 = 0 ∧ win0_0.index t 2 = 0 :=
  (by decide +kernel : ∀ t : Fin grid0.N, _)
private theorem idx1 : ∀ t : Fin cfg0.N, win0_1.index t 0 = t.val ∧ win0_1.index t 1 = 0 ∧ win0_1.index t 2 = 0 :=
  (by decide +kernel : ∀ t : Fin grid0.N, _)
private theorem idx2 : ∀ t : Fin cfg0.N, win0_2.index t 0 = 0 ∧ win0_2.index t 1 = 0 :=
  (by decide +kernel : ∀ t : Fin grid0.N, _)
private theorem idx3 : ∀ t : Fin cfg0.N, win0_3.index t 0 = 0 ∧ win0_3.index t 1 = 0 :=
  (by decide +kernel : ∀ t : Fin grid0.N, _)

/-- Window 0 at point t is batch t of the first argument. -/
theorem iblk0_apply (c : Dev nD) (t : Fin cfg0.N) (p : Fin 256) (f : Fin 512) :
    (iblk m c 0 t : Vec F S1x256x512 .f32) (ix3 0 p f)
      = (m ((c : Thread nD τ).loc main_arg0) : Vec F S4x256x512 .f32) (ix3 ⟨t.val, t_lt t⟩ p f) := by
  obtain ⟨h0, h1, h2⟩ := idx0 t
  unfold iblk
  rw [View.read_apply]
  show V m c main_arg0 _ = _
  rw [V_main_arg0]
  congr 1
  funext a
  apply Fin.ext
  -- a block's coordinate in the array is (block index) × (block size) + (coordinate inside the block)
  match a with
  | ⟨0, _⟩ => show win0_0.index t 0 * 1 + 1 * 0 = t.val; rw [h0]; omega
  | ⟨1, _⟩ => show win0_0.index t 1 * 256 + 1 * p.val = p.val; rw [h1]; omega
  | ⟨2, _⟩ => show win0_0.index t 2 * 512 + 1 * f.val = f.val; rw [h2]; omega

/-- Window 1 at point t is batch t of the second argument. -/
theorem iblk1_apply (c : Dev nD) (t : Fin cfg0.N) (p : Fin 256) (f : Fin 512) :
    (iblk m c 1 t : Vec F S1x256x512 .f32) (ix3 0 p f)
      = (m ((c : Thread nD τ).loc main_arg1) : Vec F S4x256x512 .f32) (ix3 ⟨t.val, t_lt t⟩ p f) := by
  obtain ⟨h0, h1, h2⟩ := idx1 t
  unfold iblk
  rw [View.read_apply]
  show V m c main_arg1 _ = _
  rw [V_main_arg1]
  congr 1
  funext a
  apply Fin.ext
  -- a block's coordinate in the array is (block index) × (block size) + (coordinate inside the block)
  match a with
  | ⟨0, _⟩ => show win0_1.index t 0 * 1 + 1 * 0 = t.val; rw [h0]; omega
  | ⟨1, _⟩ => show win0_1.index t 1 * 256 + 1 * p.val = p.val; rw [h1]; omega
  | ⟨2, _⟩ => show win0_1.index t 2 * 512 + 1 * f.val = f.val; rw [h2]; omega

/-- Window 2 at every point is the whole third argument. -/
theorem iblk2_apply (c : Dev nD) (t : Fin cfg0.N) (o f : Fin 512) :
    (iblk m c 2 t : Vec F S512x512 .f32) (ix2 o f)
      = (m ((c : Thread nD τ).loc main_arg2) : Vec F S512x512 .f32) (ix2 o f) := by
  obtain ⟨h0, h1⟩ := idx2 t
  unfold iblk
  rw [View.read_apply]
  show V m c main_arg2 _ = _
  rw [V_main_arg2]
  congr 1
  funext a
  apply Fin.ext
  -- a block's coordinate in the array is (block index) × (block size) + (coordinate inside the block)
  match a with
  | ⟨0, _⟩ => show win0_2.index t 0 * 512 + 1 * o.val = o.val; rw [h0]; omega
  | ⟨1, _⟩ => show win0_2.index t 1 * 512 + 1 * f.val = f.val; rw [h1]; omega

/-- The one row the region finds in place of the fourth argument: the host's reshape of it from [512] to [1, 512],
    the only operation before the call. -/
private theorem row_eq (c : Dev nD) :
    (V m c main_v0 : S1x512.Idx → Elt F .f32)
      = shapeCast S1x512 (m ((c : Thread nD τ).loc main_arg3) : Vec F S512 .f32) shapeCasts_S512_S1x512 := by
  show StableHlo.after hostOps0 (fun b => m (c, b)) (Proc.devRef .tc main_v0) = _
  after_results
  rfl

/-- Window 3 at every point is the fourth argument laid out as one row (the reshape the host makes before the call). -/
theorem iblk3_apply (c : Dev nD) (t : Fin cfg0.N) (o : Fin 512) :
    (iblk m c 3 t : Vec F S1x512 .f32) (ix2 0 o)
      = (m ((c : Thread nD τ).loc main_arg3) : Vec F S512 .f32) (ix1 o) := by
  obtain ⟨h0, h1⟩ := idx3 t
  unfold iblk
  rw [View.read_apply]
  show V m c main_v0 _ = _
  rw [row_eq]
  -- the reshape at (0, o) is entry o, and the block's (0, o) is the array's (0, o)
  refine Eq.trans ?_ (shapeCast_a_1a_apply _ shapeCasts_S512_S1x512 (0 : Fin 1) o)
  congr 1
  funext a
  apply Fin.ext
  match a with
  | ⟨0, _⟩ => show win0_3.index t 0 * 1 + 1 * 0 = 0; rw [h0]
  | ⟨1, _⟩ => show win0_3.index t 1 * 512 + 1 * o.val = o.val; rw [h1]; omega

end Cert.KernelIdeal.BlockValue

end
-- ==== Proof.KTail.lean ====
/-
  The host lines after the call: from the call's 512 numbers, lane 0 of each group of 128 is taken, the four are added
  and the sum is divided by the number of patches.
-/
import proofs.«176485_j59863254172618_1_alg».proof.Proof.Gen.KernelIdeal
import proofs.«176485_j59863254172618_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TailValue

open Cert.KernelIdeal Cert.KernelIdeal.Facts₀ Cert.KernelIdeal.Facts Cert.PatchLoss Idealize.ShloMosaic Idealize.ShloMosaic.ValueIdx

/-- The seven host operations after the call as ONE function of the call's result: a reshape to [4, 128], the slice
    [0:4, 0:1], a reshape to [4], the sum from zero, the quotient by 1024. -/
def tail {F : FTy → Type} [FloatOps F] (X : (⟨S512, .f32⟩ : BufTy).Contents (Elt F)) : (⟨S_, .f32⟩ : BufTy).Contents (Elt F) :=
  Host.divf
    (Host.reduceAdd
      (shapeCast S4 (extractStridedSlice S4x1 ![0, 0] (shapeCast S4x128 X shapeCasts_S512_S4x128) slices_S4x128_S4x1_0_0) shapeCasts_S4x1_S4)
      (constant S_ .f32 0x00000000#32) reducesTo_S4_S_d0 h_S_)
    (constant S_ .f32 0x44800000#32)

/-- The reshape of 512 numbers to [4, 128] is row-major: entry (n, r) is entry 128·n + r. -/
private theorem reshape_at {α : Type} (X : S512.Idx → α) (n : Fin 4) (r : Fin 128) :
    shapeCast S4x128 X shapeCasts_S512_S4x128 (ix2 n r)
      = X (ix1 ⟨128 * n.val + r.val, by have := n.isLt; have := r.isLt; omega⟩) :=
  shapeCast_apply X shapeCasts_S512_S4x128 _ _ (by
    rw [Shape.rowMajor_val_one, Shape.rowMajor_val_two]
    show 128 * n.val + r.val = n.val * 128 + r.val
    omega)

/-- The slice [0:4, 0:1] keeps lane 0 of each row. -/
private theorem slice_at {α : Type} (Y : S4x128.Idx → α) (n : Fin 4) (u : Fin 1) :
    extractStridedSlice S4x1 ![0, 0] Y slices_S4x128_S4x1_0_0 (ix2 n u) = Y (ix2 n (⟨0, by omega⟩ : Fin 128)) :=
  slice2_axis1_apply 0 Y slices_S4x128_S4x1_0_0 n u ⟨0, by omega⟩ (by have := u.isLt; show 0 = 0 + u.val; omega)

/-- The reshape of a [4, 1] column to [4]: entry n is entry (n, 0). -/
private theorem squeeze_at {α : Type} (Z : S4x1.Idx → α) (n : Fin 4) :
    shapeCast S4 Z shapeCasts_S4x1_S4 (ix1 n) = Z (ix2 n (0 : Fin 1)) :=
  shapeCast_apply Z shapeCasts_S4x1_S4 _ _ (by
    rw [Shape.rowMajor_val_two, Shape.rowMajor_val_one]
    show n.val * 1 + 0 = n.val
    omega)

/-- A rank-1 index of extent 4 is its one coordinate. -/
private def idxEquiv4 : Fin 4 ≃ S4.Idx where
  toFun n := ix1 n
  invFun i := i 0
  left_inv _ := rfl
  right_inv i := (eq_ix1 i).symm

/-- The sum of four numbers from the zero word, on extended reals. The result has no axis, so its one entry is the
    initial value plus the sum over every index of the operand. -/
private theorem sum4_at (W : (⟨S4, .f32⟩ : BufTy).Contents (Elt Ideal)) :
    (Host.reduceAdd (F := Ideal) W (constant (F := Ideal) S_ .f32 0x00000000#32) reducesTo_S4_S_d0 h_S_ ix0 : EReal)
      = ∑ n : Fin 4, (W (ix1 n) : EReal) := by
  simp only [Host.reduceAdd, Ideal.hostReduceAdd_def]
  rw [Ideal.hostReduceAdd_total reducesTo_S4_S_d0 (fun b => b.elim0)]
  rw [constant_apply, Ideal.ofBits_zero_f32, zero_add]
  exact (Equiv.sum_comp idxEquiv4 (fun i => (W i : EReal))).symm

/-- On extended reals: if entry 128·n of the call's result is `B n`, the tail's one entry is the sum of the four
    `B n` over the number of patches. -/
theorem tail_apply (X : (⟨S512, .f32⟩ : BufTy).Contents (Elt Ideal)) (B : Fin 4 → EReal)
    (hX : ∀ n : Fin 4, (X (ix1 ⟨128 * n.val, by have := n.isLt; omega⟩) : EReal) = B n) :
    (tail (F := Ideal) X ix0 : EReal) = Ideal.div (∑ n : Fin 4, B n) patches := by
  unfold tail
  show Ideal.div (Host.reduceAdd (F := Ideal) _ (constant (F := Ideal) S_ .f32 0x00000000#32) reducesTo_S4_S_d0 h_S_ ix0) patches = _
  rw [sum4_at]
  refine congrArg (Ideal.div · patches) (Finset.sum_congr rfl fun n _ => ?_)
  rw [squeeze_at, slice_at, reshape_at]
  exact hX n

end Cert.KernelIdeal.TailValue

end
-- ==== Proof.KValue.lean ====
/-
  The kernel program's result, on extended reals, is the loss of the specification.

  At grid point t the body sees batch t of the inputs and of the labels, the whole weight and the bias row; what it
  stores into the output block is 128 copies of that batch's loss (the scratch it reads back is the matrix of L1
  distances of the batch's label rows). The four output blocks make the 512-entry result of the call: entry i is the
  loss of batch i / 128. The host lines after the call take entries 0, 128, 256, 384, add them and divide by the number
  of patches: the loss.
-/
import proofs.«176485_j59863254172618_1_alg».proof.Proof.KBody
import proofs.«176485_j59863254172618_1_alg».proof.Proof.KLoop
import proofs.«176485_j59863254172618_1_alg».proof.Proof.KPayProb
import proofs.«176485_j59863254172618_1_alg».proof.Proof.KBlocks
import proofs.«176485_j59863254172618_1_alg».proof.Proof.KTail
import Idealize.ShloMosaic.Lib.Pipeline.Value
import Idealize.ShloMosaic.Lib.StableHlo.Run

set_option maxRecDepth 16384

noncomputable section

open scoped BigOperators

namespace Cert.KernelIdeal.RunValue

open Cert.KernelIdeal Cert.KernelIdeal.Gen Cert.KernelIdeal.Body Cert.KernelIdeal.LoopCover Cert.KernelIdeal.LoopValue
open Cert.KernelIdeal.PayValue Cert.KernelIdeal.BlockValue Cert.KernelIdeal.TailValue Cert.PatchLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The arguments as launched, as functions of coordinates: batch n of the labels and of the inputs, the weight, the bias. -/
abbrev labelsOf (c : Dev nD) (n : Fin 4) : Fin 256 → Fin 512 → EReal :=
  fun p f => ((m ((c : Thread nD τ).loc main_arg1) : Vec Ideal S4x256x512 .f32) (ix3 n p f) : EReal)
abbrev inputsOf (c : Dev nD) (n : Fin 4) : Fin 256 → Fin 512 → EReal :=
  fun p f => ((m ((c : Thread nD τ).loc main_arg0) : Vec Ideal S4x256x512 .f32) (ix3 n p f) : EReal)
abbrev weightOf (c : Dev nD) : Fin 512 → Fin 512 → EReal :=
  fun o f => ((m ((c : Thread nD τ).loc main_arg2) : Vec Ideal S512x512 .f32) (ix2 o f) : EReal)
abbrev biasOf (c : Dev nD) : Fin 512 → EReal :=
  fun o => ((m ((c : Thread nD τ).loc main_arg3) : Vec Ideal S512 .f32) (ix1 o) : EReal)

/-- Every lane of the vector the body stores is the loss of the batch its blocks hold. -/
theorem stored_apply (c : Dev nD) (i : grid0.Coords) (arg1 : Memref sig .tc .vmem S1x256x512 .f32) (harg1 : arg1.IsWhole) (arg2 : Memref sig .tc .vmem S1x256x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S128 .f32) (harg5 : arg5.IsWhole) (arg6 : Memref sig .tc .vmem S256x256 .f32) (harg6 : arg6.IsWhole)
    (x0 x1 : Vec Ideal S1x256x512 .f32) (x2 : Vec Ideal S512x512 .f32) (x3 : Vec Ideal S1x512 .f32) (y : S128.Idx) :
    (stored (F := Ideal) c i arg1 harg1 arg2 harg2 arg3 harg3 arg4 harg4 arg5 harg5 arg6 harg6 x0 x1 x2 x3 y : EReal)
      = batchLoss (fun p f => (x1 (ix3 0 p f) : EReal)) (fun p f => (x0 (ix3 0 p f) : EReal)) (fun o f => (x2 (ix2 o f) : EReal)) (fun o => (x3 (ix2 0 o) : EReal)) := by
  unfold stored
  refine pay1_apply _ _ _ _ _ _ (fun p q => pay3_apply _ _ (fun a b => ?_) p q) (fun p q => pay4_apply x0 x2 x3 p q) y
  unfold scratchAfter
  exact pb_canon Variants.none c none i arg1 harg1 arg2 harg2 arg3 harg3 arg4 harg4 arg5 harg5 arg6 harg6 (harg2.unread x1) _ (fun p f => by rw [harg2.read_unread]) a b

/-- The loss is a function of its four arguments. -/
theorem batchLoss_congr {l l' a a' : Fin 256 → Fin 512 → EReal} {w w' : Fin 512 → Fin 512 → EReal} {b b' : Fin 512 → EReal}
    (hl : l = l') (ha : a = a') (hw : w = w') (hb : b = b') : batchLoss l a w b = batchLoss l' a' w' b' := by
  subst hl ha hw hb; rfl

/-- After grid point t every lane of the output's staging buffer holds batch t's loss. -/
theorem outsAt_apply (c : Dev nD) (t : Fin cfg0.N) (y : S128.Idx) :
    (outsAt0 m c t y : EReal)
      = batchLoss (labelsOf m c ⟨t.val, t_lt t⟩) (inputsOf m c ⟨t.val, t_lt t⟩) (weightOf m c) (biasOf m c) := by
  unfold outsAt0 out0_A_4
  rw [View.read_writes_eq_canon _ _ _ (cover0_A_4 _ _ _ _ _ _ _ _ _ _ _ _ _ _ _ _ _ _)]
  unfold pieces
  rw [View.canon_unit_zero hz1]
  refine (stored_apply _ _ _ _ _ _ _ _ _ _ _ _ _ _ (iblk m c 0 t) (iblk m c 1 t) (iblk m c 2 t) (iblk m c 3 t) y).trans ?_
  exact batchLoss_congr (funext fun p => funext fun f => iblk1_apply m c t p f) (funext fun p => funext fun f => iblk0_apply m c t p f)
    (funext fun o => funext fun f => iblk2_apply m c t o f) (funext fun o => iblk3_apply m c t o)

/-! ## The call's result array -/

/-- Batch n's loss, of the arguments as launched. -/
abbrev lossOf (c : Dev nD) (n : Fin 4) : EReal :=
  batchLoss (labelsOf m c n) (inputsOf m c n) (weightOf m c) (biasOf m c)

theorem div_lt (i : S512.Idx) : (i 0).val / 128 < 4 := by
  have h : (i 0).val < 512 := (i 0).isLt
  omega

/-- The call's result: entry i is the loss of batch i / 128. -/
abbrev resultArr (c : Dev nD) : Vec Ideal S512 .f32 := fun i => lossOf m c ⟨(i 0).val / 128, div_lt i⟩

/-- The output window's block index at point t is t. -/
theorem idx4 : ∀ t : Fin cfg0.N, win0_4.index t (0 : Fin 1) = t.val :=
  (by decide +kernel : ∀ t : Fin grid0.N, _)

/-- What point t writes back is block t of the result. -/
theorem flushed_eq (c : Dev nD) (t : Fin cfg0.N) :
    (dats m 0 c).flushed 4 t = ((cfg0.win 4).blk t).view.read (Elt Ideal) (resultArr m c) := by
  show (cfg0.win 4).cut (grid0.coords t) ((dats m 0 c).after 4 t) = _
  rw [after0_4]
  funext y
  rw [View.read_apply]
  show outsAt0 m c t y = resultArr m c (((cfg0.win 4).blk t).view.emb y)
  refine (outsAt_apply m c t y).trans ?_
  have e : (((cfg0.win 4).blk t).view.emb y 0).val / 128 = t.val := by
    show (win0_4.index t (0 : Fin 1) * 128 + 1 * (y 0).val) / 128 = t.val
    rw [idx4 t]
    have hy : (y 0).val < 128 := (y 0).isLt
    omega
  exact congrArg (lossOf m c) (Fin.ext e.symm)

/-- An index of the result is in point t's block iff it lies in the block's range. -/
theorem mem_blk4 (t : Fin cfg0.N) (i : S512.Idx) :
    i ∈ ((cfg0.win 4).blk t).view.set ↔ ∀ a : Fin 1, win0_4.index t a * S128.size a ≤ (i a).val ∧ (i a).val < win0_4.index t a * S128.size a + S128.size a := by
  show i ∈ ((View.whole main_v1).slice (win0_4.rect t)).set ↔ _
  rw [View.set_slice_whole, Rect.mem_set_unit]
  exact Iff.rfl

/-- Every index of the result lies in the block of point i / 128, which is written back. -/
theorem covered (i : S512.Idx) : ∃ t : Fin cfg0.N, (cfg0.win 4).flush t = true ∧ i ∈ ((cfg0.win 4).blk t).view.set := by
  have hi : (i 0).val < 512 := (i 0).isLt
  have hN : cfg0.N = 4 := N_0
  refine ⟨⟨(i 0).val / 128, by omega⟩, flush0_4 _, ?_⟩
  rw [mem_blk4]
  intro a
  match a with
  | ⟨0, _⟩ =>
    show win0_4.index _ (0 : Fin 1) * 128 ≤ (i 0).val ∧ (i 0).val < win0_4.index _ (0 : Fin 1) * 128 + 128
    rw [idx4]
    dsimp only
    omega

/-- So the result array ends holding `resultArr`. -/
theorem final (c : Dev nD) : (dats m 0 c).arrAt 4 cfg0.N = resultArr m c :=
  (dats m 0 c).arrAt_eq_of_cover 4 (resultArr m c) (fun t _ => flushed_eq m c t) (covered)

/-! ## The host lines after the call, and the run -/

/-- The program's one result is the tail of the call's result. -/
theorem result_eq (c : Dev nD) :
    Pipeline.afterTail₀ cfgs (dats m) 0 (V0 m) [hostOps1] c main_v6 = tail (F := Ideal) (resultArr m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v1)
      = resultArr m c :=
    (Pipeline.withArrays_arr spec0 launch0.win.arr_inj c _ _ 4).trans (final m c)
  rw [e]
  rfl

/-- The tail of the result is the loss. -/
theorem tail_result (c : Dev nD) :
    tail (F := Ideal) (resultArr m c) = fun _ => loss (labelsOf m c) (inputsOf m c) (weightOf m c) (biasOf m c) := by
  funext j
  obtain rfl : j = ix0 := eq_ix0 j
  exact tail_apply (resultArr m c) (lossOf m c) (fun n => congrArg (lossOf m c) (Fin.ext (by
    show (128 * n.val) / 128 = n.val
    omega)))

/-- The run, read: the program's result at the loss, the four arguments unchanged. -/
theorem run : θ_run defs (onTc (τ := τ) (main (F := Ideal))) ⟨m, fun _ => 0, ρ⟩ (fun r => ∀ c : Dev nD,
      r.2.mem ((c.tc : Thread nD τ).loc main_v6) = (fun _ => loss (labelsOf m c) (inputsOf m c) (weightOf m c) (biasOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v6 (Pipeline.mem_restRefs_of main_v6 (by decide) (by decide))).trans ((result_eq m c).trans (tail_result m c)),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c))⟩) (run_main m ρ)

end Cert.KernelIdeal.RunValue

end
-- ==== Proof.RefTarget.lean ====
/-
  The reference's target distribution, entry by entry, on extended reals.
-/
import proofs.«176485_j59863254172618_1_alg».proof.Proof.RefRead
import proofs.«176485_j59863254172618_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.ReadP Cert.PatchLoss Idealize.ShloMosaic Idealize.ShloMosaic.ValueIdx

/-- The absolute value of a difference of two finite numbers does not depend on the order of subtraction. -/
private theorem abs_sub_swap (a b : EReal) (ha : ∃ r : ℝ, a = (r : EReal)) (hb : ∃ r : ℝ, b = (r : EReal)) :
    max (b - a) (-(b - a)) = max (a - b) (-(a - b)) := by
  obtain ⟨r, rfl⟩ := ha
  obtain ⟨s, rfl⟩ := hb
  rw [← EReal.coe_sub, ← EReal.coe_sub, ← EReal.coe_neg, ← EReal.coe_neg, neg_sub, neg_sub]
  exact max_comm _ _

/-- The first broadcast pair puts label row j of batch n at entry (n, i, j, f). -/
private theorem v2_at (x1 : (⟨S4x256x512, .f32⟩ : BufTy).Contents (Elt Ideal)) (n : Fin 4) (i j : Fin 256) (f : Fin 512) :
    val_main_v2 (F := Ideal) x1 (ix4 n i j f) = x1 (ix3 n j f) := by
  rw [val_main_v2_apply, val_main_v0_apply]
  exact congrArg x1 (funext fun a => Fin.ext (by match a with | ⟨0, _⟩ => rfl | ⟨1, _⟩ => rfl | ⟨2, _⟩ => rfl))

/-- The second broadcast pair puts label row i of batch n at entry (n, i, j, f). -/
private theorem v3_at (x1 : (⟨S4x256x512, .f32⟩ : BufTy).Contents (Elt Ideal)) (n : Fin 4) (i j : Fin 256) (f : Fin 512) :
    val_main_v3 (F := Ideal) x1 (ix4 n i j f) = x1 (ix3 n i f) := by
  rw [val_main_v3_apply, val_main_v1_apply]
  exact congrArg x1 (funext fun a => Fin.ext (by match a with | ⟨0, _⟩ => rfl | ⟨1, _⟩ => rfl | ⟨2, _⟩ => rfl))

/-- Entry (n, i, j, f) of the absolute difference: |labels[n, j, f] − labels[n, i, f]|. -/
private theorem v5_at (x1 : (⟨S4x256x512, .f32⟩ : BufTy).Contents (Elt Ideal)) (n : Fin 4) (i j : Fin 256) (f : Fin 512) :
    (val_main_v5 (F := Ideal) x1 (ix4 n i j f) : EReal)
      = max ((x1 (ix3 n j f) : EReal) - x1 (ix3 n i f)) (-((x1 (ix3 n j f) : EReal) - x1 (ix3 n i f))) := by
  rw [val_main_v5_apply, val_main_v4_apply, v2_at, v3_at]
  rfl

/-- The summation index of the sum over f, at explicit coordinates. -/
private theorem idx_v6_at (n : Fin 4) (i j : Fin 256) (f : Fin 512) : idx_main_v6 (ix3 n i j) f = ix4 n i j f :=
  funext fun a => Fin.ext (by match a with | ⟨0, _⟩ => rfl | ⟨1, _⟩ => rfl | ⟨2, _⟩ => rfl | ⟨3, _⟩ => rfl)

/-- Entry (n, i, j) of the sum over f is the L1 distance of label rows i and j of batch n. -/
private theorem v6_at (x1 : (⟨S4x256x512, .f32⟩ : BufTy).Contents (Elt Ideal)) (hfin : ∀ i, ∃ r : ℝ, (x1 i : EReal) = (r : EReal))
    (n : Fin 4) (i j : Fin 256) :
    (val_main_v6 (F := Ideal) x1 (ix3 n i j) : EReal) = l1 (fun i f => (x1 (ix3 n i f) : EReal)) i j := by
  rw [val_main_v6_apply, val_main_cst_apply, Ideal.ofBits_def, Ideal.ofBits_zero_f32, zero_add]
  unfold l1
  refine Finset.sum_congr rfl fun f _ => ?_
  rw [idx_v6_at, v5_at]
  exact abs_sub_swap _ _ (hfin _) (hfin _)

/-- Entry (n, i, j) of the converted comparison: 1 when rows i and j are at distance zero, else 0. -/
private theorem v9_at (x1 : (⟨S4x256x512, .f32⟩ : BufTy).Contents (Elt Ideal)) (hfin : ∀ i, ∃ r : ℝ, (x1 i : EReal) = (r : EReal))
    (n : Fin 4) (i j : Fin 256) :
    (val_main_v9 (F := Ideal) x1 (ix3 n i j) : EReal) = same (fun i f => (x1 (ix3 n i f) : EReal)) i j := by
  rw [val_main_v9_apply, val_main_v8_apply, v6_at x1 hfin, val_main_v7_apply, val_main_cst_0_apply]
  rfl

/-- The summation index of the row sum, at explicit coordinates. -/
private theorem idx_v10_at (n : Fin 4) (i k : Fin 256) : idx_main_v10 (ix2 n i) k = ix3 n i k :=
  funext fun a => Fin.ext (by match a with | ⟨0, _⟩ => rfl | ⟨1, _⟩ => rfl | ⟨2, _⟩ => rfl)

/-- Entry (n, i) of the row sum: how many rows coincide with row i. -/
private theorem v10_at (x1 : (⟨S4x256x512, .f32⟩ : BufTy).Contents (Elt Ideal)) (hfin : ∀ i, ∃ r : ℝ, (x1 i : EReal) = (r : EReal))
    (n : Fin 4) (i : Fin 256) :
    (val_main_v10 (F := Ideal) x1 (ix2 n i) : EReal) = nsame (fun i f => (x1 (ix3 n i f) : EReal)) i := by
  rw [val_main_v10_apply, val_main_cst_1_apply, Ideal.ofBits_def, Ideal.ofBits_zero_f32, zero_add]
  unfold nsame
  refine Finset.sum_congr rfl fun k _ => ?_
  rw [idx_v10_at, v9_at x1 hfin]

/-- The two broadcasts of the row sum put entry (n, i) at (n, i, j). -/
private theorem v12_at (x1 : (⟨S4x256x512, .f32⟩ : BufTy).Contents (Elt Ideal)) (n : Fin 4) (i j : Fin 256) :
    val_main_v12 (F := Ideal) x1 (ix3 n i j) = val_main_v10 (F := Ideal) x1 (ix2 n i) := by
  rw [val_main_v12_apply, val_main_v11_apply]
  exact congrArg (val_main_v10 (F := Ideal) x1) (funext fun a => Fin.ext (by match a with | ⟨0, _⟩ => rfl | ⟨1, _⟩ => rfl))

/-- Entry (n, i, j) of the reference's target array is the target distribution of batch n's label rows at (i, j).
    The reference subtracts the rows in the other order; on finite numbers the absolute value does not see it. -/
theorem ref_target (x1 : (⟨S4x256x512, .f32⟩ : BufTy).Contents (Elt Ideal)) (hfin : ∀ i, ∃ r : ℝ, (x1 i : EReal) = (r : EReal)) (n : Fin 4) (i j : Fin 256) :
    (val_main_v13 (F := Ideal) x1 (ix3 n i j) : EReal) = target (fun i f => (x1 (ix3 n i f) : EReal)) i j := by
  rw [val_main_v13_apply, v12_at, v10_at x1 hfin, v9_at x1 hfin]
  rfl

end Cert.ReferenceIdeal.RefValue

end
-- ==== Proof.RefProb.lean ====
/-
  The reference's exponentials of the scores less their row maxima, entry by entry, on extended reals.
-/
import proofs.«176485_j59863254172618_1_alg».proof.Proof.RefRead
import proofs.«176485_j59863254172618_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.ReadP Cert.PatchLoss Idealize.ShloMosaic Idealize.ShloMosaic.ValueIdx

/-- Batch `n`'s input rows, the weight's rows and the bias, as functions of their coordinates. -/
private abbrev rowsOf (x0 : (⟨S4x256x512, .f32⟩ : BufTy).Contents (Elt Ideal)) (n : Fin 4) : Fin 256 → Fin 512 → EReal :=
  fun p f => (x0 (ix3 n p f) : EReal)
private abbrev weightOf (x2 : (⟨S512x512, .f32⟩ : BufTy).Contents (Elt Ideal)) : Fin 512 → Fin 512 → EReal :=
  fun o f => (x2 (ix2 o f) : EReal)
private abbrev biasOf (x3 : (⟨S512, .f32⟩ : BufTy).Contents (Elt Ideal)) : Fin 512 → EReal :=
  fun o => (x3 (ix1 o) : EReal)

/-! ## Where each stage reads its operands, at explicit coordinates -/

/-- The linear layer's left factor at (n, p, o), summand k, is the input at (n, p, k). -/
private theorem lidx14 (n : Fin 4) (p : Fin 256) (o k : Fin 512) : lidx_main_v14 (ix3 n p o) k = ix3 n p k :=
  funext fun a => Fin.ext (by match a with | ⟨0, _⟩ => rfl | ⟨1, _⟩ => rfl | ⟨2, _⟩ => rfl)

/-- Its right factor is the weight at (o, k). -/
private theorem ridx14 (n : Fin 4) (p : Fin 256) (o k : Fin 512) : ridx_main_v14 (ix3 n p o) k = ix2 o k :=
  funext fun a => Fin.ext (by match a with | ⟨0, _⟩ => rfl | ⟨1, _⟩ => rfl)

/-- The bias, broadcast twice, is read at o. -/
private theorem idx16 (n : Fin 4) (p : Fin 256) (o : Fin 512) : idx_main_v15 (idx_main_v16 (ix3 n p o)) = ix1 o :=
  funext fun a => Fin.ext (by match a with | ⟨0, _⟩ => rfl)

/-- The row sum of squares at (n, p), summand k, reads the squares at (n, p, k). -/
private theorem idx19 (n : Fin 4) (p : Fin 256) (k : Fin 512) : idx_main_v19 (ix2 n p) k = ix3 n p k :=
  funext fun a => Fin.ext (by match a with | ⟨0, _⟩ => rfl | ⟨1, _⟩ => rfl | ⟨2, _⟩ => rfl)

/-- The column of lengths at (n, p, 0) reads the row sums at (n, p). -/
private theorem idx20 (n : Fin 4) (p : Fin 256) : idx_main_v20 (ix3 n p (0 : Fin 1)) = ix2 n p :=
  funext fun a => Fin.ext (by match a with | ⟨0, _⟩ => rfl | ⟨1, _⟩ => rfl)

/-- The lengths broadcast along the features read the column at (n, p, 0). -/
private theorem idx24 (n : Fin 4) (p : Fin 256) (o : Fin 512) : idx_main_v24 (ix3 n p o) = ix3 n p (0 : Fin 1) :=
  funext fun a => Fin.ext (by match a with | ⟨0, _⟩ => rfl | ⟨1, _⟩ => rfl | ⟨2, _⟩ => rfl)

/-- The batched product at (n, p, q), summand k: the left factor is the unit row at (n, p, k). -/
private theorem lidx26 (n : Fin 4) (p q : Fin 256) (k : Fin 512) : lidx_main_v26 (ix3 n p q) k = ix3 n p k :=
  funext fun a => Fin.ext (by match a with | ⟨0, _⟩ => rfl | ⟨1, _⟩ => rfl | ⟨2, _⟩ => rfl)

/-- The right factor is the unit row at (n, q, k). -/
private theorem ridx26 (n : Fin 4) (p q : Fin 256) (k : Fin 512) : ridx_main_v26 (ix3 n p q) k = ix3 n q k :=
  funext fun a => Fin.ext (by match a with | ⟨0, _⟩ => rfl | ⟨1, _⟩ => rfl | ⟨2, _⟩ => rfl)

/-- The row maxima, broadcast twice, are read at (n, p). -/
private theorem idx33 (n : Fin 4) (p q : Fin 256) : idx_main_v32 (idx_main_v33 (ix3 n p q)) = ix2 n p :=
  funext fun a => Fin.ext (by match a with | ⟨0, _⟩ => rfl | ⟨1, _⟩ => rfl)

/-- Putting column q back into the reduced index (n, p) gives (n, p, q). -/
private theorem lift29 (h : S4x256x256.Reduces [2] S4x256) (n : Fin 4) (p : Fin 256) (k : Fin (S4x256x256.size 2)) :
    h.lift (ix2 n p) k = ix3 n p (⟨k.val, k.isLt⟩ : Fin 256) :=
  funext fun a => Fin.ext (by
    rw [Shape.Reduces.lift_val]
    match a with | ⟨0, _⟩ => rfl | ⟨1, _⟩ => rfl | ⟨2, _⟩ => rfl)

/-- The word 0xFF800000 denotes the least extended real. -/
private theorem negInf_eq_bot : (Ideal.ofBits .f32 0xFF800000#32 : EReal) = ⊥ := by
  simp [Ideal.ofBits, Ideal.ieee]

/-! ## The stages -/

section Stages

variable (x0 : (⟨S4x256x512, .f32⟩ : BufTy).Contents (Elt Ideal)) (x2 : (⟨S512x512, .f32⟩ : BufTy).Contents (Elt Ideal)) (x3 : (⟨S512, .f32⟩ : BufTy).Contents (Elt Ideal))

/-- The linear layer: the product with the weight plus the bias is the specification's feature. -/
private theorem ref_feat (n : Fin 4) (p : Fin 256) (o : Fin 512) :
    (val_main_v17 (F := Ideal) x0 x2 x3 (ix3 n p o) : EReal)
      = feat (rowsOf x0 n) (weightOf x2) (biasOf x3) p o := by
  rw [val_main_v17_apply, val_main_v14_apply, val_main_v16_apply, val_main_v15_apply, idx16]
  simp only [lidx14, ridx14, Ideal.addf_def]
  rfl

/-- The row sum of the squared features, from the zero word, is the squared length. -/
private theorem ref_sqnorm (n : Fin 4) (p : Fin 256) :
    (val_main_v19 (F := Ideal) x0 x2 x3 (ix2 n p) : EReal)
      = sqnorm (rowsOf x0 n) (weightOf x2) (biasOf x3) p := by
  rw [val_main_v19_apply, val_main_cst_2_apply]
  simp only [idx19, val_main_v18_apply, ref_feat, Ideal.mulf_def, Ideal.ofBits_def, Ideal.ofBits_zero_f32, zero_add]
  rfl

/-- The length of a feature row, floored at the tiny constant. -/
private theorem ref_len (n : Fin 4) (p : Fin 256) :
    (val_main_v23 (F := Ideal) x0 x2 x3 (ix3 n p (0 : Fin 1)) : EReal)
      = max (Ideal.sqrt (sqnorm (rowsOf x0 n) (weightOf x2) (biasOf x3) p)) tiny := by
  rw [val_main_v23_apply, val_main_v21_apply, val_main_v20_apply, idx20, ref_sqnorm, val_main_v22_apply, val_main_cst_3_apply]
  rfl

/-- The feature row over its length is the specification's unit row. -/
private theorem ref_unit (n : Fin 4) (p : Fin 256) (o : Fin 512) :
    (val_main_v25 (F := Ideal) x0 x2 x3 (ix3 n p o) : EReal)
      = unit (rowsOf x0 n) (weightOf x2) (biasOf x3) p o := by
  rw [val_main_v25_apply, val_main_v24_apply, idx24, ref_len, ref_feat]
  rfl

/-- The batched product of the unit rows over the temperature is the score. -/
private theorem ref_score (n : Fin 4) (p q : Fin 256) :
    (val_main_v28 (F := Ideal) x0 x2 x3 (ix3 n p q) : EReal)
      = score (rowsOf x0 n) (weightOf x2) (biasOf x3) p q := by
  rw [val_main_v28_apply, val_main_v26_apply, val_main_v27_apply, val_main_cst_4_apply]
  simp only [lidx26, ridx26, ref_unit, Ideal.hostDivf_def, Ideal.ofBits_def]
  rfl

/-- The reduction by maximum along the columns, from minus infinity, is the fold that the row maximum is. -/
private theorem ref_fold (n : Fin 4) (p : Fin 256) :
    (val_main_v29 (F := Ideal) x0 x2 x3 (ix2 n p) : EReal)
      = rowmax (rowsOf x0 n) (weightOf x2) (biasOf x3) p := by
  have h : S4x256x256.Reduces [2] S4x256 := by decide
  have hcol : (val_main_v28 (F := Ideal) x0 x2 x3 ∘ h.lift (ix2 n p))
      = fun q : Fin 256 => score (rowsOf x0 n) (weightOf x2) (biasOf x3) p q :=
    funext fun k => (congrArg (val_main_v28 (F := Ideal) x0 x2 x3) (lift29 h n p k)).trans (ref_score x0 x2 x3 n p k)
  unfold val_main_v29
  rw [Host.reduce_eq_fold_single FloatOps.maximumf _ _ Gen.reducesTo_S4x256x256_S4x256_d2 h Gen.h_S_, hcol]
  rfl

/-- The larger of minus infinity and the row maximum is the row maximum. -/
private theorem ref_rowmax (n : Fin 4) (p : Fin 256) :
    (val_main_v31 (F := Ideal) x0 x2 x3 (ix2 n p) : EReal)
      = rowmax (rowsOf x0 n) (weightOf x2) (biasOf x3) p := by
  rw [val_main_v31_apply, val_main_v30_apply, val_main_cst_6_apply, ref_fold]
  simp only [Ideal.maximumf_def, Ideal.ofBits_def, negInf_eq_bot]
  exact max_eq_right bot_le

end Stages

/-- Entry (n, p, q) of the reference's array of exponentials is batch n's at (p, q). -/
theorem ref_ex (x0 : (⟨S4x256x512, .f32⟩ : BufTy).Contents (Elt Ideal)) (x2 : (⟨S512x512, .f32⟩ : BufTy).Contents (Elt Ideal)) (x3 : (⟨S512, .f32⟩ : BufTy).Contents (Elt Ideal))
    (n : Fin 4) (p q : Fin 256) :
    (val_main_v35 (F := Ideal) x0 x2 x3 (ix3 n p q) : EReal)
      = ex (fun p f => (x0 (ix3 n p f) : EReal)) (fun o f => (x2 (ix2 o f) : EReal)) (fun o => (x3 (ix1 o) : EReal)) p q := by
  rw [val_main_v35_apply, val_main_v34_apply, val_main_v33_apply, val_main_v32_apply, idx33, ref_rowmax, ref_score]
  rfl

end Cert.ReferenceIdeal.RefValue

end
-- ==== Proof.RefLoss.lean ====
/-
  The reference's result is the loss of the specification.
-/
import proofs.«176485_j59863254172618_1_alg».proof.Proof.RefRead
import proofs.«176485_j59863254172618_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«176485_j59863254172618_1_alg».proof.Proof.RefTarget
import proofs.«176485_j59863254172618_1_alg».proof.Proof.RefProb

noncomputable section

open scoped BigOperators

namespace Cert.ReferenceIdeal.RefValue

open Cert.ReferenceIdeal Cert.ReferenceIdeal.ReadP Cert.PatchLoss Idealize.ShloMosaic Idealize.ShloMosaic.ValueIdx

/-- The index set of a rank-3 array is the product of its three coordinate ranges … -/
private def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The broadcast row sum: every entry of row `p` of batch `n` reads the sum of that row's exponentials. -/
private theorem ref_exsum (x0 : (⟨S4x256x512, .f32⟩ : BufTy).Contents (Elt Ideal)) (x2 : (⟨S512x512, .f32⟩ : BufTy).Contents (Elt Ideal)) (x3 : (⟨S512, .f32⟩ : BufTy).Contents (Elt Ideal)) (n : Fin 4) (p q : Fin 256) :
    (val_main_v38 (F := Ideal) x0 x2 x3 (ix3 n p q) : EReal) = exsum (fun p f => (x0 (ix3 n p f) : EReal)) (fun o f => (x2 (ix2 o f) : EReal)) (fun o => (x3 (ix1 o) : EReal)) p := by
  have hidx : ∀ k : Fin 256, idx_main_v36 (idx_main_v37 (idx_main_v38 (ix3 n p q))) k = ix3 n p k := fun k =>
    funext fun a => Fin.ext (by match a with | ⟨0, _⟩ => rfl | ⟨1, _⟩ => rfl | ⟨2, _⟩ => rfl)
  rw [val_main_v38_apply, val_main_v37_apply, val_main_v36_apply, val_main_cst_7_apply]
  simp only [hidx, Ideal.ofBits_def, Ideal.ofBits_zero_f32, zero_add]
  unfold exsum
  exact Finset.sum_congr rfl fun k _ => ref_ex x0 x2 x3 n p k

/-- The clipped quotient is the specification's probability. -/
private theorem ref_prob (x0 : (⟨S4x256x512, .f32⟩ : BufTy).Contents (Elt Ideal)) (x2 : (⟨S512x512, .f32⟩ : BufTy).Contents (Elt Ideal)) (x3 : (⟨S512, .f32⟩ : BufTy).Contents (Elt Ideal)) (n : Fin 4) (p q : Fin 256) :
    (val_main_v40 (F := Ideal) x0 x2 x3 (ix3 n p q) : EReal) = prob (fun p f => (x0 (ix3 n p f) : EReal)) (fun o f => (x2 (ix2 o f) : EReal)) (fun o => (x3 (ix1 o) : EReal)) p q := by
  rw [val_main_v40_apply, val_main_call0_v4_apply, val_main_call0_v3_apply, val_main_cst_9_apply,
    val_main_call0_v2_apply, val_main_call0_v1_apply, val_main_call0_v0_apply, val_main_cst_8_apply, val_main_v39_apply]
  simp only [Ideal.minimumf_def, Ideal.maximumf_def, Ideal.hostDivf_def, Ideal.ofBits_def]
  rw [ref_exsum x0 x2 x3 n p q, ref_ex x0 x2 x3 n p q]
  rfl

/-- One pair's entry of the selected product is the specification's term. -/
private theorem ref_term (x0 x1 : (⟨S4x256x512, .f32⟩ : BufTy).Contents (Elt Ideal)) (x2 : (⟨S512x512, .f32⟩ : BufTy).Contents (Elt Ideal)) (x3 : (⟨S512, .f32⟩ : BufTy).Contents (Elt Ideal))
    (hfin : ∀ i, ∃ r : ℝ, (x1 i : EReal) = (r : EReal)) (n : Fin 4) (p q : Fin 256) :
    (val_main_v50 (F := Ideal) x0 x1 x2 x3 (ix3 n p q) : EReal)
      = term (fun i f => (x1 (ix3 n i f) : EReal)) (fun p f => (x0 (ix3 n p f) : EReal)) (fun o f => (x2 (ix2 o f) : EReal)) (fun o => (x3 (ix1 o) : EReal)) p q := by
  rw [val_main_v50_apply, val_main_v43_apply, val_main_v42_apply, val_main_cst_10_apply,
    val_main_v49_apply, val_main_v48_apply, val_main_v47_apply, val_main_v46_apply, val_main_v45_apply,
    val_main_v44_apply, val_main_cst_11_apply, val_main_call1_v1_apply, val_main_call1_v0_apply, val_main_cst_12_apply,
    val_main_v41_apply, val_main_call2_v1_apply, val_main_call2_v0_apply, val_main_cst_13_apply]
  simp only [Ideal.cmpf_def, Ideal.mulf_def, Ideal.subf_def, Ideal.hostUnary_log_def, Ideal.ofBits_def]
  rw [ref_target x1 hfin n p q, ref_prob x0 x2 x3 n p q]
  rfl

/-- The reference's one result is the loss: the four batches' losses added and divided by the number of patches. -/
theorem ref_loss (x0 x1 : (⟨S4x256x512, .f32⟩ : BufTy).Contents (Elt Ideal)) (x2 : (⟨S512x512, .f32⟩ : BufTy).Contents (Elt Ideal)) (x3 : (⟨S512, .f32⟩ : BufTy).Contents (Elt Ideal))
    (hfin : ∀ i, ∃ r : ℝ, (x1 i : EReal) = (r : EReal)) :
    (val_main_v52 (F := Ideal) x0 x1 x2 x3 ix0 : EReal)
      = loss (fun n i f => (x1 (ix3 n i f) : EReal)) (fun n p f => (x0 (ix3 n p f) : EReal)) (fun o f => (x2 (ix2 o f) : EReal)) (fun o => (x3 (ix1 o) : EReal)) := by
  rw [val_main_v52_apply, val_main_v51_apply, val_main_cst_14_apply, val_main_cst_15_apply]
  simp only [Ideal.hostDivf_def, Ideal.ofBits_def, Ideal.ofBits_zero_f32, zero_add]
  rw [sum_idx3]
  unfold loss batchLoss
  refine congrArg (fun s => Ideal.div s patches) ?_
  exact Finset.sum_congr rfl fun n _ => Finset.sum_congr rfl fun p _ => Finset.sum_congr rfl fun q _ =>
    ref_term x0 x1 x2 x3 hfin n p q

end Cert.ReferenceIdeal.RefValue

end
-- ==== Proof.FiniteLabels.lean ====
/-
  Under the precondition every label is a real number.
-/
import proofs.«176485_j59863254172618_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteLabels

open Idealize.ShloMosaic Cert.Pre_finite_inputs

variable [Cert.Pre_finite_inputs.Facts]

/-- The word with all exponent bits set, sign clear and significand zero denotes plus infinity. -/
private theorem inf_word : Ideal.ofBits .f32 0x7F800000#32 = (⊤ : EReal) := by
  simp [Ideal.ofBits, Ideal.ieee]

/-- An extended real whose absolute value, max x (−x), lies strictly below plus infinity is a real number:
    at minus infinity the negation is plus infinity, at plus infinity the value itself is, and in both
    cases the maximum is plus infinity, which is not below itself. -/
private theorem real_of_abs_lt_inf (x : EReal)
    (hx : Ideal.cmp .olt (max x (-x)) (Ideal.ofBits .f32 0x7F800000#32) = 1#1) : ∃ r : ℝ, x = (r : EReal) := by
  rw [inf_word] at hx
  have hlt : max x (-x) < ⊤ := by
    by_contra hn
    simp [Ideal.cmp, hn] at hx
  induction x using EReal.rec with
  | bot => simp at hlt
  | top => simp at hlt
  | coe r => exact ⟨r, rfl⟩

/-- The precondition says that the absolute value of every entry of every input lies below plus infinity; for the
    second input, the labels, that makes every entry the image of a real number. -/
theorem labels_real (a0 a1 : FVec Ideal S4x256x512 .f32) (a2 : FVec Ideal S512x512 .f32) (a3 : FVec Ideal S512 .f32)
    (h : Cert.Pre_finite_inputs.fn (F := Ideal) a0 a1 a2 a3 = fun _ => 1#1) (i : S4x256x512.Idx) :
    ∃ r : ℝ, (a1 i : EReal) = (r : EReal) := by
  -- The result has rank zero, hence exactly one index.
  haveI : Subsingleton S_.Idx := ⟨fun a b => funext fun d => d.elim0⟩
  -- The precondition at its one index: a conjunction ((c0 ∧ c1) ∧ c2) ∧ c3 of the four inputs' answers.
  have h0 := congrFun h ValueIdx.ix0
  unfold fn fn_part1 at h0
  dsimp only at h0
  -- Take the labels' conjunct c1.
  have h1 := (IntOp.andi_eq_one.1 h0).1
  have h2 := (IntOp.andi_eq_one.1 h1).1
  have h3 := (IntOp.andi_eq_one.1 h2).2
  -- A conjunction over all entries that holds, holds at the entry i: |a1 i| < +inf.
  have h4 := Host.reduce_andi_all _ _ _ _ _ h3 i
  exact real_of_abs_lt_inf (a1 i) h4

end Cert.FiniteLabels

end
-- ==== Proof.lean ====
/-
  The proof of the certificate's claim.

  Both programs compute, on extended reals, the same loss of the four argument arrays (`Cert.PatchLoss.loss`): for each
  of the four batches, the target distribution from the L1 distances of the label rows, the clipped softmax of the cosine
  scores of the linear layer's unit feature rows, and the sum over all pairs of target · (log target − log probability);
  the four sums added and divided by the number of patches. The kernel program gets there batch by batch — one grid
  point per batch, the body's result 128 copies of the batch's loss, the host lines after the call adding lane 0 of
  each block — and the reference in one pass over all batches. The one place where the two differ as written is the order
  of the subtraction under the absolute value of the label distances, which finite labels do not see; that is where
  the precondition is used.

  The three frames: each kernel program's run is the library's launch theorem over the body's run (the body fills its
  scratch in a counted loop of sixteen trips whose stores cover it, so what it reads back does not depend on what the
  scratch held); the reference's is its run with the result dropped. The kernel's idealization rewrote nothing.
-/
import proofs.«176485_j59863254172618_1_alg».proof.Defs
import proofs.«176485_j59863254172618_1_alg».proof.Proof.Gen.Kernel
import proofs.«176485_j59863254172618_1_alg».proof.Proof.Gen.KernelIdeal
import proofs.«176485_j59863254172618_1_alg».proof.Proof.Gen.ReferenceIdeal
import proofs.«176485_j59863254172618_1_alg».proof.Proof.Gen.Pre_finite_inputs
import proofs.«176485_j59863254172618_1_alg».proof.Proof.BBody
import proofs.«176485_j59863254172618_1_alg».proof.Proof.KValue
import proofs.«176485_j59863254172618_1_alg».proof.Proof.RefRun
import proofs.«176485_j59863254172618_1_alg».proof.Proof.RefRead
import proofs.«176485_j59863254172618_1_alg».proof.Proof.RefLoss
import proofs.«176485_j59863254172618_1_alg».proof.Proof.FiniteLabels
import Idealize.ShloMosaic.Adequacy
import Idealize.ShloMosaic.Init

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- At the ideal values both programs end with their one result at the loss of the arguments, which agree. -/
theorem algebraic : Cert.algebraic_KernelIdeal_ReferenceIdeal := by
  intro m ρ m' ρ' hpre hagree
  refine ⟨fun c _ => Cert.PatchLoss.loss (Cert.KernelIdeal.RunValue.labelsOf m c) (Cert.KernelIdeal.RunValue.inputsOf m c)
      (Cert.KernelIdeal.RunValue.weightOf m c) (Cert.KernelIdeal.RunValue.biasOf m c), Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v52_eq, (hagree c).1, (hagree c).2.1, (hagree c).2.2.1, (hagree c).2.2.2]
  funext j
  obtain rfl : j = ix0 := eq_ix0 j
  exact Cert.ReferenceIdeal.RefValue.ref_loss _ _ _ _ (fun i => Cert.FiniteLabels.labels_real _ _ _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
